-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v73_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S_ : Shape := ⟨0, ![]⟩
abbrev S1x640000 : Shape := ⟨2, ![1, 640000]⟩
abbrev S640000 : Shape := ⟨1, ![640000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S2x640000 32) (main_v33 : IVec S_ 1) : IVec S_ 1 :=
  let main_v34 : IVec S1x640000 32 := (extractStridedSlice S1x640000 ![0, 0] · slices_S2x640000_S1x640000_0_0) main_arg1
  let main_v35 : IVec S640000 32 := shapeCast S640000 main_v34 shapeCasts_S1x640000_S640000
  let main_c_12 : IVec S_ 32 := constantI S_ 32 0#32
  let main_v36 : IVec S640000 32 := broadcastInDim S640000 ![] bcast_S_S640000 main_c_12
  let main_v37 : IVec S640000 1 := cmpi .sge main_v35 main_v36
  let main_v38 : IVec S1x640000 32 := (extractStridedSlice S1x640000 ![0, 0] · slices_S2x640000_S1x640000_0_0) main_arg1
  let main_v39 : IVec S640000 32 := shapeCast S640000 main_v38 shapeCasts_S1x640000_S640000
  let main_c_13 : IVec S_ 32 := constantI S_ 32 50000#32
  let main_v40 : IVec S640000 32 := broadcastInDim S640000 ![] bcast_S_S640000 main_c_13
  let main_v41 : IVec S640000 1 := cmpi .slt main_v39 main_v40
  let main_v42 : IVec S640000 1 := andi main_v37 main_v41
  let main_c_14 : IVec S_ 1 := constantI S_ 1 1#1
  let main_v43 : IVec S_ 1 := (fun x v => Host.reduce IntOp.andi x v reducesTo_S640000_S_d0 h_S_) main_v42 main_c_14
  let main_v44 : IVec S_ 1 := andi main_v33 main_v43
  main_v44

def fn_part1 {F : FTy → Type} [FloatOps F] (main_arg1 : IVec S2x640000 32) (main_arg6 : FVec F S4x128 .f32) (main_arg7 : FVec F S128x32 .f32) (main_arg8 : FVec F S32 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x640000 32) (main_arg2 : IVec S50000 32) (main_arg3 : FVec F S4x128x128 .f32) (main_arg4 : FVec F S4x128 .f32) (main_arg5 : FVec F S4x128x128 .f32) (main_arg6 : FVec F S4x128 .f32) (main_arg7 : FVec F S128x32 .f32) (main_arg8 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg1 main_arg6 main_arg7 main_arg8 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x32 : Shape := ⟨2, ![1, 32]⟩
abbrev S64x32 : Shape := ⟨2, ![64, 32]⟩

abbrev nBuf : Space → Nat
  | .hbm => 179
  | .vmem => 46
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S128x32, .f32⟩
  | 8 => ⟨S32, .f32⟩
  | 9 => ⟨S1x640000, .i32⟩
  | 10 => ⟨S640000, .i32⟩
  | 11 => ⟨S1x640000, .i32⟩
  | 12 => ⟨S640000, .i32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S1, .i32⟩
  | 22 => ⟨S_, .i32⟩
  | 23 => ⟨S640000x1, .i32⟩
  | 24 => ⟨S640000x1, .i1⟩
  | 25 => ⟨S1x1, .i32⟩
  | 26 => ⟨S640000x1, .i32⟩
  | 27 => ⟨S640000x1, .i1⟩
  | 28 => ⟨S640000x1, .i1⟩
  | 29 => ⟨S_, .i1⟩
  | 30 => ⟨S640000, .i1⟩
  | 31 => ⟨S640000x128, .f32⟩
  | 32 => ⟨S640000x128, .i1⟩
  | 33 => ⟨S_, .f32⟩
  | 34 => ⟨S640000x128, .f32⟩
  | 35 => ⟨S640000x128, .f32⟩
  | 36 => ⟨S_, .f32⟩
  | 37 => ⟨S50000x128, .f32⟩
  | 38 => ⟨S640000x1, .i32⟩
  | 39 => ⟨S50000x128, .f32⟩
  | 40 => ⟨S1x128x128, .f32⟩
  | 41 => ⟨S128x128, .f32⟩
  | 42 => ⟨S1x128, .f32⟩
  | 43 => ⟨S128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S1x128, .f32⟩
  | 50 => ⟨S50000x128, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S1, .i32⟩
  | 60 => ⟨S_, .i32⟩
  | 61 => ⟨S640000x1, .i32⟩
  | 62 => ⟨S640000x1, .i1⟩
  | 63 => ⟨S1x1, .i32⟩
  | 64 => ⟨S640000x1, .i32⟩
  | 65 => ⟨S640000x1, .i1⟩
  | 66 => ⟨S640000x1, .i1⟩
  | 67 => ⟨S_, .i1⟩
  | 68 => ⟨S640000, .i1⟩
  | 69 => ⟨S640000x128, .f32⟩
  | 70 => ⟨S640000x128, .i1⟩
  | 71 => ⟨S_, .f32⟩
  | 72 => ⟨S640000x128, .f32⟩
  | 73 => ⟨S640000x128, .f32⟩
  | 74 => ⟨S_, .f32⟩
  | 75 => ⟨S50000x128, .f32⟩
  | 76 => ⟨S640000x1, .i32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128x128, .f32⟩
  | 83 => ⟨S128x128, .f32⟩
  | 84 => ⟨S1x128, .f32⟩
  | 85 => ⟨S128, .f32⟩
  | 86 => ⟨S1x128, .f32⟩
  | 87 => ⟨S1x128, .f32⟩
  | 88 => ⟨S50000x128, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S1, .i32⟩
  | 98 => ⟨S_, .i32⟩
  | 99 => ⟨S640000x1, .i32⟩
  | 100 => ⟨S640000x1, .i1⟩
  | 101 => ⟨S1x1, .i32⟩
  | 102 => ⟨S640000x1, .i32⟩
  | 103 => ⟨S640000x1, .i1⟩
  | 104 => ⟨S640000x1, .i1⟩
  | 105 => ⟨S_, .i1⟩
  | 106 => ⟨S640000, .i1⟩
  | 107 => ⟨S640000x128, .f32⟩
  | 108 => ⟨S640000x128, .i1⟩
  | 109 => ⟨S_, .f32⟩
  | 110 => ⟨S640000x128, .f32⟩
  | 111 => ⟨S640000x128, .f32⟩
  | 112 => ⟨S_, .f32⟩
  | 113 => ⟨S50000x128, .f32⟩
  | 114 => ⟨S640000x1, .i32⟩
  | 115 => ⟨S50000x128, .f32⟩
  | 116 => ⟨S1x128x128, .f32⟩
  | 117 => ⟨S128x128, .f32⟩
  | 118 => ⟨S1x128, .f32⟩
  | 119 => ⟨S128, .f32⟩
  | 120 => ⟨S1x128x128, .f32⟩
  | 121 => ⟨S128x128, .f32⟩
  | 122 => ⟨S1x128, .f32⟩
  | 123 => ⟨S128, .f32⟩
  | 124 => ⟨S1x128, .f32⟩
  | 125 => ⟨S1x128, .f32⟩
  | 126 => ⟨S50000x128, .f32⟩
  | 127 => ⟨S_, .i32⟩
  | _ => ⟨S50000x128, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S1, .i32⟩
  | 8 => ⟨S_, .i32⟩
  | 9 => ⟨S640000x1, .i32⟩
  | 10 => ⟨S640000x1, .i1⟩
  | 11 => ⟨S1x1, .i32⟩
  | 12 => ⟨S640000x1, .i32⟩
  | 13 => ⟨S640000x1, .i1⟩
  | 14 => ⟨S640000x1, .i1⟩
  | 15 => ⟨S_, .i1⟩
  | 16 => ⟨S640000, .i1⟩
  | 17 => ⟨S640000x128, .f32⟩
  | 18 => ⟨S640000x128, .i1⟩
  | 19 => ⟨S_, .f32⟩
  | 20 => ⟨S640000x128, .f32⟩
  | 21 => ⟨S640000x128, .f32⟩
  | 22 => ⟨S_, .f32⟩
  | 23 => ⟨S50000x128, .f32⟩
  | 24 => ⟨S640000x1, .i32⟩
  | 25 => ⟨S50000x128, .f32⟩
  | 26 => ⟨S1x128x128, .f32⟩
  | 27 => ⟨S128x128, .f32⟩
  | 28 => ⟨S1x128, .f32⟩
  | 29 => ⟨S128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S1x128, .f32⟩
  | 36 => ⟨S50000x128, .f32⟩
  | 37 => ⟨S_, .f32⟩
  | 38 => ⟨S64x128, .f32⟩
  | 39 => ⟨S50000x1, .i32⟩
  | 40 => ⟨S64x128, .f32⟩
  | 41 => ⟨S_, .f32⟩
  | 42 => ⟨S50000, .f32⟩
  | 43 => ⟨S_, .f32⟩
  | 44 => ⟨S64, .f32⟩
  | 45 => ⟨S50000x1, .i32⟩
  | 46 => ⟨S64, .f32⟩
  | 47 => ⟨S64x1, .f32⟩
  | 48 => ⟨S1x32, .f32⟩
  | 49 => ⟨S64x128, .f32⟩
  | 50 => ⟨S64x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S64x128, .f32⟩
  | .local _ .vmem, ⟨41, _⟩ => ⟨S64x1, .f32⟩
  | .local _ .vmem, ⟨42, _⟩ => ⟨S128x32, .f32⟩
  | .local _ .vmem, ⟨43, _⟩ => ⟨S1x32, .f32⟩
  | .local _ .vmem, ⟨44, _⟩ => ⟨S64x128, .f32⟩
  | .local _ .vmem, ⟨45, _⟩ => ⟨S64x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v19 : Ref sig .tc := ⟨.hbm, 73, rfl⟩
abbrev main_cst_0 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v34 : Ref sig .tc := ⟨.hbm, 111, rfl⟩
abbrev main_cst_1 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_call3_c : Ref sig .tc := ⟨.hbm, 127, rfl⟩
abbrev main_call3_v0 : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_c_1 : Ref sig .tc := ⟨.hbm, 135, rfl⟩
abbrev main_call3_c_2 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_call3_c_3 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_cst : Ref sig .tc := ⟨.hbm, 147, rfl⟩
abbrev main_call3_v15 : Ref sig .tc := ⟨.hbm, 148, rfl⟩
abbrev main_v49 : Ref sig .tc := ⟨.hbm, 149, rfl⟩
abbrev main_cst_2 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_cst_3 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_cst_4 : Ref sig .tc := ⟨.hbm, 169, rfl⟩
abbrev main_v67 : Ref sig .tc := ⟨.hbm, 170, rfl⟩
abbrev main_cst_5 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73_0 : Ref sig .tc := ⟨.hbm, 177, rfl⟩
abbrev main_v73_1 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  shapeCasts_S64_S64x1 : S64.ShapeCasts S64x1
  shapeCasts_S32_S1x32 : S32.ShapeCasts S1x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S64x1_S64x128 : S64x1.Broadcasts S64x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S64x32_S64x32_0_0 : ∀ a, (![0, 0] : Fin 2 → Nat) a + S64x32.size a ≤ S64x32.size a
  h_S64x32 : 0 < S64x32.numel
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x128.size a ≤ S64x128.size a
  hwx4_0 : ∀ i : grid4.Coords, EltTy.bits .f32 = 32 ∨ (Rect.block (s := S64x128) S64x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x32.size a ≤ S128x32.size a
  hwx4_2 : ∀ i : grid4.Coords, EltTy.bits .f32 = 32 ∨ (Rect.block (s := S128x32) S128x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x128.size a ≤ S64x128.size a
  hwx4_4 : ∀ i : grid4.Coords, EltTy.bits .f32 = 32 ∨ (Rect.block (s := S64x128) S64x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x32.size a ≤ S64x32.size a
  hwx4_5 : ∀ i : grid4.Coords, EltTy.bits .f32 = 32 ∨ (Rect.block (s := S64x32) S64x32.size (cc4_transform_5 i) (hinb4_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v66) S64x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v71) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73_0) S64x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73_1) S64x32.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S4x128x128 : Shape := ⟨3, ![4, 128, 128]⟩
abbrev S4x128 : Shape := ⟨2, ![4, 128]⟩
abbrev S128x32 : Shape := ⟨2, ![128, 32]⟩
abbrev S32 : Shape := ⟨1, ![32]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x32 : Shape := ⟨2, ![64, 32]⟩
abbrev S1x32 : Shape := ⟨2, ![1, 32]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S128x32, .f32⟩
  | 8 => ⟨S32, .f32⟩
  | 9 => ⟨S1x640000, .i32⟩
  | 10 => ⟨S640000, .i32⟩
  | 11 => ⟨S1x640000, .i32⟩
  | 12 => ⟨S640000, .i32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000x128, .f32⟩
  | 22 => ⟨S_, .f32⟩
  | 23 => ⟨S50000x128, .f32⟩
  | 24 => ⟨S640000x1, .i32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .i32⟩
  | 50 => ⟨S640000, .i32⟩
  | 51 => ⟨S640000, .i1⟩
  | 52 => ⟨S_, .i32⟩
  | 53 => ⟨S640000, .i32⟩
  | 54 => ⟨S640000, .i32⟩
  | 55 => ⟨S640000, .i32⟩
  | 56 => ⟨S640000x1, .i32⟩
  | 57 => ⟨S640000x128, .f32⟩
  | 58 => ⟨S_, .f32⟩
  | 59 => ⟨S50000x128, .f32⟩
  | 60 => ⟨S640000x1, .i32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S_, .i32⟩
  | 86 => ⟨S640000, .i32⟩
  | 87 => ⟨S640000, .i1⟩
  | 88 => ⟨S_, .i32⟩
  | 89 => ⟨S640000, .i32⟩
  | 90 => ⟨S640000, .i32⟩
  | 91 => ⟨S640000, .i32⟩
  | 92 => ⟨S640000x1, .i32⟩
  | 93 => ⟨S640000x128, .f32⟩
  | 94 => ⟨S_, .f32⟩
  | 95 => ⟨S50000x128, .f32⟩
  | 96 => ⟨S640000x1, .i32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S50000x128, .f32⟩

abbrev hbmTy0_1 (i : Nat) : BufTy := match i % 128 with
  | 0 => ⟨S640000x1, .i32⟩
  | 1 => ⟨S640000x128, .f32⟩
  | 2 => ⟨S_, .f32⟩
  | 3 => ⟨S50000x128, .f32⟩
  | 4 => ⟨S640000x1, .i32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S1x128x128, .f32⟩
  | 19 => ⟨S128x128, .f32⟩
  | 20 => ⟨S50000x128, .f32⟩
  | 21 => ⟨S1x128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S64x128, .f32⟩
  | 28 => ⟨S50000x1, .i32⟩
  | 29 => ⟨S64x128, .f32⟩
  | 30 => ⟨S_, .f32⟩
  | 31 => ⟨S50000, .f32⟩
  | 32 => ⟨S_, .f32⟩
  | 33 => ⟨S64, .f32⟩
  | 34 => ⟨S50000x1, .i32⟩
  | 35 => ⟨S64, .f32⟩
  | 36 => ⟨S_, .f32⟩
  | 37 => ⟨S64, .f32⟩
  | 38 => ⟨S64, .f32⟩
  | 39 => ⟨S64x1, .f32⟩
  | 40 => ⟨S64x128, .f32⟩
  | 41 => ⟨S64x128, .f32⟩
  | 42 => ⟨S64x32, .f32⟩
  | 43 => ⟨S1x32, .f32⟩
  | 44 => ⟨S64x32, .f32⟩
  | 45 => ⟨S64x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_c_2 : Ref sig .tc := ⟨.hbm, 49, rfl⟩
abbrev main_v34 : Ref sig .tc := ⟨.hbm, 50, rfl⟩
abbrev main_v35 : Ref sig .tc := ⟨.hbm, 51, rfl⟩
abbrev main_c_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call1_cst : Ref sig .tc := ⟨.hbm, 82, rfl⟩
abbrev main_call1_v0 : Ref sig .tc := ⟨.hbm, 83, rfl⟩
abbrev main_v63 : Ref sig .tc := ⟨.hbm, 84, rfl⟩
abbrev main_c_6 : Ref sig .tc := ⟨.hbm, 85, rfl⟩
abbrev main_v64 : Ref sig .tc := ⟨.hbm, 86, rfl⟩
abbrev main_v65 : Ref sig .tc := ⟨.hbm, 87, rfl⟩
abbrev main_c_7 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_8 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_9 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_call2_cst : Ref sig .tc := ⟨.hbm, 118, rfl⟩
abbrev main_call2_v0 : Ref sig .tc := ⟨.hbm, 119, rfl⟩
abbrev main_v93 : Ref sig .tc := ⟨.hbm, 120, rfl⟩
abbrev main_c_10 : Ref sig .tc := ⟨.hbm, 121, rfl⟩
abbrev main_v94 : Ref sig .tc := ⟨.hbm, 122, rfl⟩
abbrev main_v95 : Ref sig .tc := ⟨.hbm, 123, rfl⟩
abbrev main_c_11 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_12 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_13 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_14 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_15 : Ref sig .tc := ⟨.hbm, 158, rfl⟩
abbrev main_v126 : Ref sig .tc := ⟨.hbm, 159, rfl⟩
abbrev main_cst_16 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_17 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x32_S64x32_1_0_0_1_n_n_wf : DotDims.WF S64x128 S128x32 S64x32 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.KDefs.lean ====
/-
  The host-side functions of the kernel program, named once.

  Around its five kernel regions the program computes, with plain array operations: the source and destination
  index vectors (the two rows of the edge list), the gathered rows of a feature array with out-of-range rows filled
  (`takeK`), their scatter-add into the destination rows (`aggK`: each node's sum of its in-neighbours' features),
  each layer's weight matrices and bias rows cut out of the stacked weights, and for the head the per-graph sums
  of the last features (`sumsK`) and the per-graph node counts as a column (`cntK`).
-/
import proofs.«425847_j77086073028963_1_alg».proof.Proof.Gen.KernelIdeal
import Idealize.ShloMosaic.PureOps.Ideal

noncomputable section

namespace Cert.KernelIdeal.Hand

open Cert.KernelIdeal Cert.KernelIdeal.Facts₀ Idealize.ShloMosaic

/-- The edges' source indices: row 0 of the edge list. -/
def srcK (ei : IVec S2x640000 32) : IVec S640000 32 :=
  shapeCast S640000 (extractStridedSlice S1x640000 ![0, 0] ei slices_S2x640000_S1x640000_0_0) shapeCasts_S1x640000_S640000

/-- The edges' destination indices: row 1 of the edge list. -/
def dstK (ei : IVec S2x640000 32) : IVec S640000 32 :=
  shapeCast S640000 (extractStridedSlice S1x640000 ![1, 0] ei slices_S2x640000_S1x640000_1_0) shapeCasts_S1x640000_S640000

/-- The source indices with negative words moved up by the node count, as a column. -/
def idxK (ei : IVec S2x640000 32) : IVec S640000x1 32 :=
  broadcastInDim S640000x1 ![0] bcast_S640000_S640000x1_0
    (select (cmpi .slt (srcK ei) (broadcastInDim S640000 ![] bcast_S_S640000 (constantI S_ 32 0#32)))
      (addi (srcK ei) (broadcastInDim S640000 ![] bcast_S_S640000 (constantI S_ 32 50000#32))) (srcK ei))

/-- Which edges have their (moved) source index inside the node range. -/
def maskK (ei : IVec S2x640000 32) : IVec S640000 1 :=
  Host.reduce IntOp.andi
    (andi (cmpi .sge (idxK ei) (broadcastInDim S640000x1 ![] bcast_S_S640000x1 (constantI S_ 32 0#32)))
      (cmpi .sle (idxK ei) (broadcastInDim S640000x1 ![0, 1] bcast_S1x1_S640000x1_0_1 (broadcastInDim S1x1 ![1] bcast_S1_S1x1_1 (constantI S1 32 49999#32)))))
    (constantI S_ 1 1#1) reducesTo_S640000x1_S640000_d1 h_S_

/-- One row of the feature array per edge: its source node's row where the index is in range, a filled row elsewhere. -/
def takeK (h : FVec Ideal S50000x128 .f32) (ei : IVec S2x640000 32) : FVec Ideal S640000x128 .f32 :=
  select (broadcastInDim S640000x128 ![0] bcast_S640000_S640000x128_0 (maskK ei))
    (Host.gather gather_S50000x128_S640000x1_S640000x128_1_0_n_n_0_1_1128 h (idxK ei))
    (broadcastInDim S640000x128 ![] bcast_S_S640000x128 (constant S_ .f32 0x7FC00000#32))

/-- The neighbour sums: every edge's gathered row added into its destination node's row, from zeros. -/
def aggK (h : FVec Ideal S50000x128 .f32) (ei : IVec S2x640000 32) : FVec Ideal S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 (dstK ei)) (takeK h ei)

/-- The per-graph sums of a feature array: every node's row added into its graph's row, from zeros. -/
def sumsK (h : FVec Ideal S50000x128 .f32) (batch : IVec S50000 32) : FVec Ideal S64x128 .f32 :=
  Host.scatterAdd scatter_S64x128_S50000x1_S50000x128_1_0_0_1
    (broadcastInDim S64x128 ![] bcast_S_S64x128 (constant S_ .f32 0x00000000#32))
    (broadcastInDim S50000x1 ![0] bcast_S50000_S50000x1_0 batch) h

/-- The per-graph node counts: a one per node added into its graph's entry, from zeros. -/
def cntVecK (batch : IVec S50000 32) : FVec Ideal S64 .f32 :=
  Host.scatterAdd scatter_S64_S50000x1_S50000_n_0_0_1
    (broadcastInDim S64 ![] bcast_S_S64 (constant S_ .f32 0x00000000#32))
    (broadcastInDim S50000x1 ![0] bcast_S50000_S50000x1_0 batch)
    (broadcastInDim S50000 ![] bcast_S_S50000 (constant S_ .f32 0x3F800000#32))

/-- Layer `o`'s weight matrix cut out of a stacked weight array. -/
def wK (o : Nat) (w : FVec Ideal S4x128x128 .f32) (hs : S4x128x128.Slices ![o, 0, 0] S1x128x128) : FVec Ideal S128x128 .f32 :=
  shapeCast S128x128 (extractStridedSlice S1x128x128 ![o, 0, 0] w hs) shapeCasts_S1x128x128_S128x128

/-- Layer `o`'s bias cut out of a stacked bias array, as a one-row matrix. -/
def bK (o : Nat) (b : FVec Ideal S4x128 .f32) (hs : S4x128.Slices ![o, 0] S1x128) : FVec Ideal S1x128 .f32 :=
  shapeCast S1x128 (shapeCast S128 (extractStridedSlice S1x128 ![o, 0] b hs) shapeCasts_S1x128_S128) shapeCasts_S128_S1x128

end Cert.KernelIdeal.Hand

end
-- ==== Proof.KHost0.lean ====
/-
  What each kernel region finds in its input arrays at its entry.

  Between the launch and the first region, and between one region and the next, the program runs plain array
  operations: it cuts the two rows of the edge list into the source and destination index vectors, gathers one row of
  the current feature array per edge (filling the rows whose index is out of range), adds every gathered row into its
  destination node's row, and cuts the layer's two weight matrices and two bias rows out of the stacked arrays; before
  the last region it adds every node's row into its graph's row and counts the nodes of each graph. Here each of these
  stretches is computed once from arbitrary contents at its start, the index vectors and the arguments are followed
  from the launch to every later boundary (no stretch writes them and no region has them as an output), and the two are
  put together: at its entry every region finds, in the arrays it reads, the named host functions of the launch
  memory and of the previous region's output.
-/
import proofs.«425847_j77086073028963_1_alg».proof.Proof.Gen.KernelIdeal.Frame
import proofs.«425847_j77086073028963_1_alg».proof.Proof.KDefs
import Idealize.ShloMosaic.Lib.StableHlo.Run
import Idealize.ShloMosaic.PureOps.Ideal
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ) (ρ : Dev nD → PrngReg)

/-! ## One layer's host stretch, from any contents

The gather stretch reads the source indices and a feature array and leaves the filled gathered rows; the stretch after
it reads the destination indices and those rows and leaves the neighbour sums, and cuts the layer's weights and biases
out of the stacked arrays. Each is stated from arbitrary contents `V` at the stretch's start. -/

theorem take0 (V : Valuation τ sig (Elt Ideal)) (ei : IVec S2x640000 32)
    (h1 : V (Proc.devRef .tc main_v1) = srcK ei) :
    StableHlo.after hostOps0_1 V (Proc.devRef .tc main_v4) = takeK (V (Proc.devRef .tc main_arg0)) ei := by
  after_results_simp
  rw [h1]
  simp only [cast_cast, cast_eq]
  rfl

theorem agg0 (V : Valuation τ sig (Elt Ideal)) (h : FVec Ideal S50000x128 .f32) (ei : IVec S2x640000 32)
    (h3 : V (Proc.devRef .tc main_v3) = dstK ei) (h4 : V (Proc.devRef .tc main_v4) = takeK h ei) :
    StableHlo.after hostOps0_2 V (Proc.devRef .tc main_v7) = aggK h ei := by
  after_results_simp
  rw [h3, h4]
  rfl

/-! ## Region 0's entry -/

theorem entry0 (c : Dev nD) :
    V3 m ρ c main_arg0 = m ((c : Thread nD τ).loc main_arg0)
    ∧ V3 m ρ c main_v7 = aggK (m ((c : Thread nD τ).loc main_arg0)) (m ((c : Thread nD τ).loc main_arg1))
    ∧ V3 m ρ c main_v9 = wK 0 (m ((c : Thread nD τ).loc main_arg3)) Facts₀.slices_S4x128x128_S1x128x128_0_0_0
    ∧ V3 m ρ c main_v16 = bK 0 (m ((c : Thread nD τ).loc main_arg4)) Facts₀.slices_S4x128_S1x128_0_0
    ∧ V3 m ρ c main_v13 = wK 0 (m ((c : Thread nD τ).loc main_arg5)) Facts₀.slices_S4x128x128_S1x128x128_0_0_0
    ∧ V3 m ρ c main_v17 = bK 0 (m ((c : Thread nD τ).loc main_arg6)) Facts₀.slices_S4x128_S1x128_0_0 := by
  have h1 : W1 m ρ c (Proc.devRef .tc main_v1) = srcK (m ((c : Thread nD τ).loc main_arg1)) := by
    show StableHlo.after hostOps0 (W0 m ρ c) (Proc.devRef .tc main_v1) = _
    after_results_simp
    rfl
  have h0 : W1 m ρ c (Proc.devRef .tc main_arg0) = m ((c : Thread nD τ).loc main_arg0) := by
    show StableHlo.after hostOps0 (W0 m ρ c) (Proc.devRef .tc main_arg0) = _
    after_results_simp
  have h3 : W2 m ρ c (Proc.devRef .tc main_v3) = dstK (m ((c : Thread nD τ).loc main_arg1)) := by
    show StableHlo.after hostOps0_1 (StableHlo.after hostOps0 (W0 m ρ c)) (Proc.devRef .tc main_v3) = _
    after_results_simp
    rfl
  have h4 : W2 m ρ c (Proc.devRef .tc main_v4)
      = takeK (m ((c : Thread nD τ).loc main_arg0)) (m ((c : Thread nD τ).loc main_arg1)) :=
    (take0 (W1 m ρ c) _ h1).trans (by rw [h0])
  refine ⟨?_, agg0 (W2 m ρ c) _ _ h3 h4, ?_, ?_, ?_, ?_⟩
  all_goals
    show StableHlo.after hostOps0_2 (StableHlo.after hostOps0_1 (StableHlo.after hostOps0 (W0 m ρ c))) (Proc.devRef .tc _) = _
    after_results_simp
  all_goals rfl

end Cert.KernelIdeal.Hand
end
-- ==== Proof.KWalk.lean ====
/-
  The buffers that no later operation writes: the two index vectors (the rows of the edge list, computed once at the
  start) and the arguments hold, at every later segment boundary, what they held after the first host stretch.
-/
import proofs.«425847_j77086073028963_1_alg».proof.Proof.Gen.KernelIdeal.Frame
import proofs.«425847_j77086073028963_1_alg».proof.Proof.KDefs
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The buffers written at most by the first host stretch and read by later ones. -/
abbrev early : List (Ref sig .tc) := [main_v1, main_v3, main_arg1, main_arg2, main_arg3, main_arg4, main_arg5, main_arg6, main_arg7, main_arg8]

/-- After the first host stretch: the index vectors are the two rows of the edge list, the arguments as launched. -/
theorem at0 (c : Dev nD) :
    W1 m ρ c (Proc.devRef .tc main_v1) = srcK (m ((c : Thread nD τ).loc main_arg1)) ∧ W1 m ρ c (Proc.devRef .tc main_v3) = dstK (m ((c : Thread nD τ).loc main_arg1))
    ∧ W1 m ρ c (Proc.devRef .tc main_arg0) = (m ((c : Thread nD τ).loc main_arg0)) ∧ W1 m ρ c (Proc.devRef .tc main_arg1) = (m ((c : Thread nD τ).loc main_arg1))
    ∧ W1 m ρ c (Proc.devRef .tc main_arg2) = (m ((c : Thread nD τ).loc main_arg2)) ∧ W1 m ρ c (Proc.devRef .tc main_arg3) = (m ((c : Thread nD τ).loc main_arg3))
    ∧ W1 m ρ c (Proc.devRef .tc main_arg4) = (m ((c : Thread nD τ).loc main_arg4)) ∧ W1 m ρ c (Proc.devRef .tc main_arg5) = (m ((c : Thread nD τ).loc main_arg5))
    ∧ W1 m ρ c (Proc.devRef .tc main_arg6) = (m ((c : Thread nD τ).loc main_arg6)) ∧ W1 m ρ c (Proc.devRef .tc main_arg7) = (m ((c : Thread nD τ).loc main_arg7))
    ∧ W1 m ρ c (Proc.devRef .tc main_arg8) = (m ((c : Thread nD τ).loc main_arg8)) := by
  refine ⟨?_, ?_, ?_, ?_, ?_, ?_, ?_, ?_, ?_, ?_, ?_⟩
  all_goals
    show StableHlo.after hostOps0 (W0 m ρ c) (Proc.devRef .tc _) = _
    after_results_simp
  all_goals rfl

/-- Across layer 0's two host stretches and its region the index vectors and the arguments stay as they were. -/
theorem keep0 (c : Dev nD) (b : Ref sig .tc) (hb : b ∈ early) :
    W4 m ρ c (Proc.devRef .tc b) = W1 m ρ c (Proc.devRef .tc b) := by
  simp only [early, List.mem_cons, List.mem_singleton, List.not_mem_nil, or_false] at hb
  rcases hb with rfl | rfl | rfl | rfl | rfl | rfl | rfl | rfl | rfl | rfl
  all_goals
    refine (W4_of_ne m ρ c _ (by decide)).trans ?_
    show StableHlo.after hostOps0_2 (StableHlo.after hostOps0_1 (W1 m ρ c)) (Proc.devRef .tc _) = _
    after_results_simp

/-- Across layer 1's two host stretches and its region the index vectors and the arguments stay as they were. -/
theorem keep1 (c : Dev nD) (b : Ref sig .tc) (hb : b ∈ early) :
    W7 m ρ c (Proc.devRef .tc b) = W4 m ρ c (Proc.devRef .tc b) := by
  simp only [early, List.mem_cons, List.mem_singleton, List.not_mem_nil, or_false] at hb
  rcases hb with rfl | rfl | rfl | rfl | rfl | rfl | rfl | rfl | rfl | rfl
  all_goals
    refine (W7_of_ne m ρ c _ (by decide)).trans ?_
    show StableHlo.after hostOps1_1 (StableHlo.after hostOps1 (W4 m ρ c)) (Proc.devRef .tc _) = _
    after_results_simp

/-- Across layer 2's two host stretches and its region the index vectors and the arguments stay as they were. -/
theorem keep2 (c : Dev nD) (b : Ref sig .tc) (hb : b ∈ early) :
    W10 m ρ c (Proc.devRef .tc b) = W7 m ρ c (Proc.devRef .tc b) := by
  simp only [early, List.mem_cons, List.mem_singleton, List.not_mem_nil, or_false] at hb
  rcases hb with rfl | rfl | rfl | rfl | rfl | rfl | rfl | rfl | rfl | rfl
  all_goals
    refine (W10_of_ne m ρ c _ (by decide)).trans ?_
    show StableHlo.after hostOps2_1 (StableHlo.after hostOps2 (W7 m ρ c)) (Proc.devRef .tc _) = _
    after_results_simp

/-- Across layer 3's two host stretches and its region the index vectors and the arguments stay as they were. -/
theorem keep3 (c : Dev nD) (b : Ref sig .tc) (hb : b ∈ early) :
    W13 m ρ c (Proc.devRef .tc b) = W10 m ρ c (Proc.devRef .tc b) := by
  simp only [early, List.mem_cons, List.mem_singleton, List.not_mem_nil, or_false] at hb
  rcases hb with rfl | rfl | rfl | rfl | rfl | rfl | rfl | rfl | rfl | rfl
  all_goals
    refine (W13_of_ne m ρ c _ (by decide)).trans ?_
    show StableHlo.after hostOps3_1 (StableHlo.after hostOps3 (W10 m ρ c)) (Proc.devRef .tc _) = _
    after_results_simp

/-- The same buffers at the boundary before each layer's host stretches, back to the first. -/
theorem at1 (c : Dev nD) (b : Ref sig .tc) (hb : b ∈ early) : W4 m ρ c (Proc.devRef .tc b) = W1 m ρ c (Proc.devRef .tc b) := keep0 m ρ c b hb
theorem at2 (c : Dev nD) (b : Ref sig .tc) (hb : b ∈ early) : W7 m ρ c (Proc.devRef .tc b) = W1 m ρ c (Proc.devRef .tc b) :=
  (keep1 m ρ c b hb).trans (at1 m ρ c b hb)
theorem at3 (c : Dev nD) (b : Ref sig .tc) (hb : b ∈ early) : W10 m ρ c (Proc.devRef .tc b) = W1 m ρ c (Proc.devRef .tc b) :=
  (keep2 m ρ c b hb).trans (at2 m ρ c b hb)
theorem at4 (c : Dev nD) (b : Ref sig .tc) (hb : b ∈ early) : W13 m ρ c (Proc.devRef .tc b) = W1 m ρ c (Proc.devRef .tc b) :=
  (keep3 m ρ c b hb).trans (at3 m ρ c b hb)

end Cert.KernelIdeal.Hand

end
-- ==== Proof.KHost1.lean ====
/-
  What kernel region 1 finds in its input arrays at its entry.

  Between region 0 and region 1 the program runs plain array operations: it gathers one row of region 0's output
  per edge (filling the rows whose index is out of range), adds every gathered row into its destination node's row, and
  cuts layer 1's two weight matrices and two bias rows out of the stacked arrays. Here the two stretches are computed
  once from arbitrary contents at their start and put together with what the index vectors and the arguments hold at
  region 0's exit: at its entry region 1 finds, in the arrays it reads, the named host functions of the launch memory
  and of region 0's output.
-/
import proofs.«425847_j77086073028963_1_alg».proof.Proof.Gen.KernelIdeal.Frame
import proofs.«425847_j77086073028963_1_alg».proof.Proof.KDefs
import proofs.«425847_j77086073028963_1_alg».proof.Proof.KWalk
import proofs.«425847_j77086073028963_1_alg».proof.Proof.KHost0
import Idealize.ShloMosaic.Lib.StableHlo.Run
import Idealize.ShloMosaic.PureOps.Ideal
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ) (ρ : Dev nD → PrngReg)

/-! ## Layer 1's host stretches, from any contents

The gather stretch reads the source indices and a feature array and leaves the filled gathered rows; the stretch after
it reads the destination indices and those rows and leaves the neighbour sums. -/

theorem take1 (V : Valuation τ sig (Elt Ideal)) (ei : IVec S2x640000 32)
    (h1 : V (Proc.devRef .tc main_v1) = srcK ei) :
    StableHlo.after hostOps1 V (Proc.devRef .tc main_v19) = takeK (V (Proc.devRef .tc main_v18)) ei := by
  after_results_simp
  rw [h1]
  simp only [cast_cast, cast_eq]
  rfl

theorem agg1 (V : Valuation τ sig (Elt Ideal)) (h : FVec Ideal S50000x128 .f32) (ei : IVec S2x640000 32)
    (h3 : V (Proc.devRef .tc main_v3) = dstK ei) (h4 : V (Proc.devRef .tc main_v19) = takeK h ei) :
    StableHlo.after hostOps1_1 V (Proc.devRef .tc main_v22) = aggK h ei := by
  after_results_simp
  rw [h3, h4]
  rfl

/-! ## Region 1's entry

The previous region's output is read where that region left it; the index vectors and the stacked weights are the
launch's, no stretch and no region having written them since. -/

theorem entry1 (c : Dev nD) :
    V6 m ρ c main_v18 = V4 m ρ c main_v18
    ∧ V6 m ρ c main_v22 = aggK (V4 m ρ c main_v18) (m ((c : Thread nD τ).loc main_arg1))
    ∧ V6 m ρ c main_v24 = wK 1 (m ((c : Thread nD τ).loc main_arg3)) Facts₀.slices_S4x128x128_S1x128x128_1_0_0
    ∧ V6 m ρ c main_v31 = bK 1 (m ((c : Thread nD τ).loc main_arg4)) Facts₀.slices_S4x128_S1x128_1_0
    ∧ V6 m ρ c main_v28 = wK 1 (m ((c : Thread nD τ).loc main_arg5)) Facts₀.slices_S4x128x128_S1x128x128_1_0_0
    ∧ V6 m ρ c main_v32 = bK 1 (m ((c : Thread nD τ).loc main_arg6)) Facts₀.slices_S4x128_S1x128_1_0 := by
  obtain ⟨e1, e3, -, -, -, a3, a4, a5, a6, -, -⟩ := at0 m ρ c
  have h1 : W4 m ρ c (Proc.devRef .tc main_v1) = srcK (m ((c : Thread nD τ).loc main_arg1)) := (at1 m ρ c main_v1 (by decide)).trans e1
  have h3 : StableHlo.after hostOps1 (W4 m ρ c) (Proc.devRef .tc main_v3) = dstK (m ((c : Thread nD τ).loc main_arg1)) := by
    after_results_simp
    exact (at1 m ρ c main_v3 (by decide)).trans e3
  have h4 : StableHlo.after hostOps1 (W4 m ρ c) (Proc.devRef .tc main_v19) = takeK (V4 m ρ c main_v18) (m ((c : Thread nD τ).loc main_arg1)) :=
    take1 (W4 m ρ c) _ h1
  refine ⟨?_, agg1 (StableHlo.after hostOps1 (W4 m ρ c)) _ _ h3 h4, ?_, ?_, ?_, ?_⟩
  · show StableHlo.after hostOps1_1 (StableHlo.after hostOps1 (W4 m ρ c)) (Proc.devRef .tc main_v18) = _
    after_results_simp
  · show StableHlo.after hostOps1_1 (StableHlo.after hostOps1 (W4 m ρ c)) (Proc.devRef .tc main_v24) = _
    after_results_simp
    rw [at1 m ρ c main_arg3 (by decide), a3]
    rfl
  · show StableHlo.after hostOps1_1 (StableHlo.after hostOps1 (W4 m ρ c)) (Proc.devRef .tc main_v31) = _
    after_results_simp
    rw [at1 m ρ c main_arg4 (by decide), a4]
    rfl
  · show StableHlo.after hostOps1_1 (StableHlo.after hostOps1 (W4 m ρ c)) (Proc.devRef .tc main_v28) = _
    after_results_simp
    rw [at1 m ρ c main_arg5 (by decide), a5]
    rfl
  · show StableHlo.after hostOps1_1 (StableHlo.after hostOps1 (W4 m ρ c)) (Proc.devRef .tc main_v32) = _
    after_results_simp
    rw [at1 m ρ c main_arg6 (by decide), a6]
    rfl

end Cert.KernelIdeal.Hand
end
-- ==== Proof.KHost2.lean ====
/-
  What kernel region 2 finds in its input arrays at its entry.

  Between region 1 and region 2 the program runs plain array operations: it gathers one row of region 1's output
  per edge (filling the rows whose index is out of range), adds every gathered row into its destination node's row, and
  cuts layer 2's two weight matrices and two bias rows out of the stacked arrays. Here the two stretches are computed
  once from arbitrary contents at their start and put together with what the index vectors and the arguments hold at
  region 1's exit: at its entry region 2 finds, in the arrays it reads, the named host functions of the launch memory
  and of region 1's output.
-/
import proofs.«425847_j77086073028963_1_alg».proof.Proof.Gen.KernelIdeal.Frame
import proofs.«425847_j77086073028963_1_alg».proof.Proof.KDefs
import proofs.«425847_j77086073028963_1_alg».proof.Proof.KWalk
import proofs.«425847_j77086073028963_1_alg».proof.Proof.KHost1
import Idealize.ShloMosaic.Lib.StableHlo.Run
import Idealize.ShloMosaic.PureOps.Ideal
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ) (ρ : Dev nD → PrngReg)

/-! ## Layer 2's host stretches, from any contents

The gather stretch reads the source indices and a feature array and leaves the filled gathered rows; the stretch after
it reads the destination indices and those rows and leaves the neighbour sums. -/

theorem take2 (V : Valuation τ sig (Elt Ideal)) (ei : IVec S2x640000 32)
    (h1 : V (Proc.devRef .tc main_v1) = srcK ei) :
    StableHlo.after hostOps2 V (Proc.devRef .tc main_v34) = takeK (V (Proc.devRef .tc main_v33)) ei := by
  after_results_simp
  rw [h1]
  simp only [cast_cast, cast_eq]
  rfl

theorem agg2 (V : Valuation τ sig (Elt Ideal)) (h : FVec Ideal S50000x128 .f32) (ei : IVec S2x640000 32)
    (h3 : V (Proc.devRef .tc main_v3) = dstK ei) (h4 : V (Proc.devRef .tc main_v34) = takeK h ei) :
    StableHlo.after hostOps2_1 V (Proc.devRef .tc main_v37) = aggK h ei := by
  after_results_simp
  rw [h3, h4]
  rfl

/-! ## Region 2's entry

The previous region's output is read where that region left it; the index vectors and the stacked weights are the
launch's, no stretch and no region having written them since. -/

theorem entry2 (c : Dev nD) :
    V9 m ρ c main_v33 = V7 m ρ c main_v33
    ∧ V9 m ρ c main_v37 = aggK (V7 m ρ c main_v33) (m ((c : Thread nD τ).loc main_arg1))
    ∧ V9 m ρ c main_v39 = wK 2 (m ((c : Thread nD τ).loc main_arg3)) Facts₀.slices_S4x128x128_S1x128x128_2_0_0
    ∧ V9 m ρ c main_v46 = bK 2 (m ((c : Thread nD τ).loc main_arg4)) Facts₀.slices_S4x128_S1x128_2_0
    ∧ V9 m ρ c main_v43 = wK 2 (m ((c : Thread nD τ).loc main_arg5)) Facts₀.slices_S4x128x128_S1x128x128_2_0_0
    ∧ V9 m ρ c main_v47 = bK 2 (m ((c : Thread nD τ).loc main_arg6)) Facts₀.slices_S4x128_S1x128_2_0 := by
  obtain ⟨e1, e3, -, -, -, a3, a4, a5, a6, -, -⟩ := at0 m ρ c
  have h1 : W7 m ρ c (Proc.devRef .tc main_v1) = srcK (m ((c : Thread nD τ).loc main_arg1)) := (at2 m ρ c main_v1 (by decide)).trans e1
  have h3 : StableHlo.after hostOps2 (W7 m ρ c) (Proc.devRef .tc main_v3) = dstK (m ((c : Thread nD τ).loc main_arg1)) := by
    after_results_simp
    exact (at2 m ρ c main_v3 (by decide)).trans e3
  have h4 : StableHlo.after hostOps2 (W7 m ρ c) (Proc.devRef .tc main_v34) = takeK (V7 m ρ c main_v33) (m ((c : Thread nD τ).loc main_arg1)) :=
    take2 (W7 m ρ c) _ h1
  refine ⟨?_, agg2 (StableHlo.after hostOps2 (W7 m ρ c)) _ _ h3 h4, ?_, ?_, ?_, ?_⟩
  · show StableHlo.after hostOps2_1 (StableHlo.after hostOps2 (W7 m ρ c)) (Proc.devRef .tc main_v33) = _
    after_results_simp
  · show StableHlo.after hostOps2_1 (StableHlo.after hostOps2 (W7 m ρ c)) (Proc.devRef .tc main_v39) = _
    after_results_simp
    rw [at2 m ρ c main_arg3 (by decide), a3]
    rfl
  · show StableHlo.after hostOps2_1 (StableHlo.after hostOps2 (W7 m ρ c)) (Proc.devRef .tc main_v46) = _
    after_results_simp
    rw [at2 m ρ c main_arg4 (by decide), a4]
    rfl
  · show StableHlo.after hostOps2_1 (StableHlo.after hostOps2 (W7 m ρ c)) (Proc.devRef .tc main_v43) = _
    after_results_simp
    rw [at2 m ρ c main_arg5 (by decide), a5]
    rfl
  · show StableHlo.after hostOps2_1 (StableHlo.after hostOps2 (W7 m ρ c)) (Proc.devRef .tc main_v47) = _
    after_results_simp
    rw [at2 m ρ c main_arg6 (by decide), a6]
    rfl

end Cert.KernelIdeal.Hand
end
-- ==== Proof.KHost3.lean ====
/-
  What kernel region 3 finds in its input arrays at its entry.

  Between region 2 and region 3 the program runs plain array operations: it gathers one row of region 2's output
  per edge (filling the rows whose index is out of range), adds every gathered row into its destination node's row, and
  cuts layer 3's two weight matrices and two bias rows out of the stacked arrays. Here the two stretches are computed
  once from arbitrary contents at their start and put together with what the index vectors and the arguments hold at
  region 2's exit: at its entry region 3 finds, in the arrays it reads, the named host functions of the launch memory
  and of region 2's output.
-/
import proofs.«425847_j77086073028963_1_alg».proof.Proof.Gen.KernelIdeal.Frame
import proofs.«425847_j77086073028963_1_alg».proof.Proof.KDefs
import proofs.«425847_j77086073028963_1_alg».proof.Proof.KWalk
import proofs.«425847_j77086073028963_1_alg».proof.Proof.KHost2
import Idealize.ShloMosaic.Lib.StableHlo.Run
import Idealize.ShloMosaic.PureOps.Ideal
set_option maxRecDepth 16384
noncomputable section
namespace Cert.KernelIdeal.Hand
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ) (ρ : Dev nD → PrngReg)

/-! ## Layer 3's host stretches, from any contents

The gather stretch reads the source indices and a feature array and leaves the filled gathered rows; the stretch after
it reads the destination indices and those rows and leaves the neighbour sums. -/

theorem take3 (V : Valuation τ sig (Elt Ideal)) (ei : IVec S2x640000 32)
    (h1 : V (Proc.devRef .tc main_v1) = srcK ei) :
    StableHlo.after hostOps3 V (Proc.devRef .tc main_v49) = takeK (V (Proc.devRef .tc main_v48)) ei := by
  after_results_simp
  rw [h1]
  simp only [cast_cast, cast_eq]
  rfl

theorem agg3 (V : Valuation τ sig (Elt Ideal)) (h : FVec Ideal S50000x128 .f32) (ei : IVec S2x640000 32)
    (h3 : V (Proc.devRef .tc main_v3) = dstK ei) (h4 : V (Proc.devRef .tc main_v49) = takeK h ei) :
    StableHlo.after hostOps3_1 V (Proc.devRef .tc main_v52) = aggK h ei := by
  after_results_simp
  rw [h3, h4]
  rfl

/-! ## Region 3's entry

The previous region's output is read where that region left it; the index vectors and the stacked weights are the
launch's, no stretch and no region having written them since. -/

theorem entry3 (c : Dev nD) :
    V12 m ρ c main_v48 = V10 m ρ c main_v48
    ∧ V12 m ρ c main_v52 = aggK (V10 m ρ c main_v48) (m ((c : Thread nD τ).loc main_arg1))
    ∧ V12 m ρ c main_v54 = wK 3 (m ((c : Thread nD τ).loc main_arg3)) Facts₀.slices_S4x128x128_S1x128x128_3_0_0
    ∧ V12 m ρ c main_v61 = bK 3 (m ((c : Thread nD τ).loc main_arg4)) Facts₀.slices_S4x128_S1x128_3_0
    ∧ V12 m ρ c main_v58 = wK 3 (m ((c : Thread nD τ).loc main_arg5)) Facts₀.slices_S4x128x128_S1x128x128_3_0_0
    ∧ V12 m ρ c main_v62 = bK 3 (m ((c : Thread nD τ).loc main_arg6)) Facts₀.slices_S4x128_S1x128_3_0 := by
  obtain ⟨e1, e3, -, -, -, a3, a4, a5, a6, -, -⟩ := at0 m ρ c
  have h1 : W10 m ρ c (Proc.devRef .tc main_v1) = srcK (m ((c : Thread nD τ).loc main_arg1)) := (at3 m ρ c main_v1 (by decide)).trans e1
  have h3 : StableHlo.after hostOps3 (W10 m ρ c) (Proc.devRef .tc main_v3) = dstK (m ((c : Thread nD τ).loc main_arg1)) := by
    after_results_simp
    exact (at3 m ρ c main_v3 (by decide)).trans e3
  have h4 : StableHlo.after hostOps3 (W10 m ρ c) (Proc.devRef .tc main_v49) = takeK (V10 m ρ c main_v48) (m ((c : Thread nD τ).loc main_arg1)) :=
    take3 (W10 m ρ c) _ h1
  refine ⟨?_, agg3 (StableHlo.after hostOps3 (W10 m ρ c)) _ _ h3 h4, ?_, ?_, ?_, ?_⟩
  · show StableHlo.after hostOps3_1 (StableHlo.after hostOps3 (W10 m ρ c)) (Proc.devRef .tc main_v48) = _
    after_results_simp
  · show StableHlo.after hostOps3_1 (StableHlo.after hostOps3 (W10 m ρ c)) (Proc.devRef .tc main_v54) = _
    after_results_simp
    rw [at3 m ρ c main_arg3 (by decide), a3]
    rfl
  · show StableHlo.after hostOps3_1 (StableHlo.after hostOps3 (W10 m ρ c)) (Proc.devRef .tc main_v61) = _
    after_results_simp
    rw [at3 m ρ c main_arg4 (by decide), a4]
    rfl
  · show StableHlo.after hostOps3_1 (StableHlo.after hostOps3 (W10 m ρ c)) (Proc.devRef .tc main_v58) = _
    after_results_simp
    rw [at3 m ρ c main_arg5 (by decide), a5]
    rfl
  · show StableHlo.after hostOps3_1 (StableHlo.after hostOps3 (W10 m ρ c)) (Proc.devRef .tc main_v62) = _
    after_results_simp
    rw [at3 m ρ c main_arg6 (by decide), a6]
    rfl

end Cert.KernelIdeal.Hand
end
-- ==== Proof.KHost4.lean ====
/-
  What the head's region finds: the per-graph sums of the last layer's output, the per-graph node counts as a column,
  the last weight matrix and the last bias as a one-row matrix.
-/
import proofs.«425847_j77086073028963_1_alg».proof.Proof.Gen.KernelIdeal.Frame
import proofs.«425847_j77086073028963_1_alg».proof.Proof.KDefs
import proofs.«425847_j77086073028963_1_alg».proof.Proof.KWalk
import Idealize.ShloMosaic.Lib.StableHlo.Run
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

theorem entry4 (c : Dev nD) :
    V14 m ρ c main_v66 = sumsK (V13 m ρ c main_v63) (m ((c : Thread nD τ).loc main_arg2))
    ∧ V14 m ρ c main_v71 = shapeCast S64x1 (cntVecK (m ((c : Thread nD τ).loc main_arg2))) Facts₀.shapeCasts_S64_S64x1
    ∧ V14 m ρ c main_arg7 = (m ((c : Thread nD τ).loc main_arg7))
    ∧ V14 m ρ c main_v72 = shapeCast S1x32 (m ((c : Thread nD τ).loc main_arg8)) Facts₀.shapeCasts_S32_S1x32 := by
  obtain ⟨-, -, -, -, e2, -, -, -, -, e7, e8⟩ := at0 m ρ c
  have h2 : W13 m ρ c (Proc.devRef .tc main_arg2) = (m ((c : Thread nD τ).loc main_arg2)) := (at4 m ρ c main_arg2 (by decide)).trans e2
  have h7 : W13 m ρ c (Proc.devRef .tc main_arg7) = (m ((c : Thread nD τ).loc main_arg7)) := (at4 m ρ c main_arg7 (by decide)).trans e7
  have h8 : W13 m ρ c (Proc.devRef .tc main_arg8) = (m ((c : Thread nD τ).loc main_arg8)) := (at4 m ρ c main_arg8 (by decide)).trans e8
  refine ⟨?_, ?_, ?_, ?_⟩
  · show StableHlo.after hostOps4 (W13 m ρ c) (Proc.devRef .tc main_v66) = _
    after_results_simp
    rw [h2]
    rfl
  · show StableHlo.after hostOps4 (W13 m ρ c) (Proc.devRef .tc main_v71) = _
    after_results_simp
    rw [h2]
    rfl
  · show StableHlo.after hostOps4 (W13 m ρ c) (Proc.devRef .tc main_arg7) = _
    after_results_simp
    exact h7
  · show StableHlo.after hostOps4 (W13 m ρ c) (Proc.devRef .tc main_v72) = _
    after_results_simp
    rw [h8]
    rfl

end Cert.KernelIdeal.Hand

end
-- ==== Proof.Spec.lean ====
/-
  What both programs compute, entry by entry, over the extended reals.

  One layer's dense part acts on each node's row on its own: with `z = h + g` (the node's features plus the sum of
  its in-neighbours' features), the hidden row is `max (z · W1 + b1) 0` and the layer's row is `hidden · W2 + b2`
  (followed by `max · 0` on every layer but the last). The head divides each graph's feature sums by its node count
  (at least one) and applies one more affine map.
-/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

/-- The hidden row of one layer at hidden feature `k`: `max (Σ_l (h l + g l) · W1 l k + b1 k) 0`. -/
def hiddenAt (h g : Fin 128 → EReal) (W1 : Fin 128 → Fin 128 → EReal) (b1 : Fin 128 → EReal) (k : Fin 128) : EReal :=
  max ((∑ l : Fin 128, (h l + g l) * W1 l k) + b1 k) 0

/-- One layer's row before the closing `max · 0`, at output feature `j`: `Σ_k hidden k · W2 k j + b2 j`. -/
def rowAt (h g : Fin 128 → EReal) (W1 : Fin 128 → Fin 128 → EReal) (b1 : Fin 128 → EReal)
    (W2 : Fin 128 → Fin 128 → EReal) (b2 : Fin 128 → EReal) (j : Fin 128) : EReal :=
  (∑ k : Fin 128, hiddenAt h g W1 b1 k * W2 k j) + b2 j

/-- A whole layer as an array over nodes and features, from the feature array `h`, the neighbour sums `g`, and the
    layer's weights read as plain functions; `relu` says whether the closing `max · 0` is applied. -/
def layer (relu : Bool) (h g : (⟨2, ![50000, 128]⟩ : Shape).Idx → EReal) (W1 : Fin 128 → Fin 128 → EReal) (b1 : Fin 128 → EReal)
    (W2 : Fin 128 → Fin 128 → EReal) (b2 : Fin 128 → EReal) : (⟨2, ![50000, 128]⟩ : Shape).Idx → EReal := fun i =>
  let y := rowAt (fun l => h (ix2 (i 0) l)) (fun l => g (ix2 (i 0) l)) W1 b1 W2 b2 (i 1)
  if relu then max y 0 else y

/-- The pooled features: a graph's feature sums divided by its node count, the count raised to at least one. -/
def pooled (sums : (⟨2, ![64, 128]⟩ : Shape).Idx → EReal) (cnt : Fin 64 → EReal) : (⟨2, ![64, 128]⟩ : Shape).Idx → EReal :=
  fun i => Ideal.div (sums i) (max (cnt (i 0)) (Ideal.ofBits .f32 0x3F800000#32))

/-- The class scores: the pooled features through the last affine map. -/
def logits (p : (⟨2, ![64, 128]⟩ : Shape).Idx → EReal) (W : Fin 128 → Fin 32 → EReal) (b : Fin 32 → EReal) :
    (⟨2, ![64, 32]⟩ : Shape).Idx → EReal :=
  fun i => (∑ k : Fin 128, p (ix2 (i 0) k) * W k (i 1)) + b (i 1)

/-- The whole network from the node features `x`: four layers, each fed the features and their neighbour sums `agg`
    of the layer before (the closing `max · 0` on all but the last), then the pooled features and the class scores.
    `agg` (the neighbour sums of a feature array), `sums` (a feature array's per-graph sums) and `cnt` (the graphs'
    node counts) stay abstract: both programs compute them by the same scatter-adds. -/
def net (agg : ((⟨2, ![50000, 128]⟩ : Shape).Idx → EReal) → (⟨2, ![50000, 128]⟩ : Shape).Idx → EReal)
    (sums : ((⟨2, ![50000, 128]⟩ : Shape).Idx → EReal) → (⟨2, ![64, 128]⟩ : Shape).Idx → EReal) (cnt : Fin 64 → EReal)
    (x : (⟨2, ![50000, 128]⟩ : Shape).Idx → EReal)
    (w1 : Fin 4 → Fin 128 → Fin 128 → EReal) (b1 : Fin 4 → Fin 128 → EReal)
    (w2 : Fin 4 → Fin 128 → Fin 128 → EReal) (b2 : Fin 4 → Fin 128 → EReal)
    (wl : Fin 128 → Fin 32 → EReal) (bl : Fin 32 → EReal) :
    ((⟨2, ![64, 128]⟩ : Shape).Idx → EReal) × ((⟨2, ![64, 32]⟩ : Shape).Idx → EReal) :=
  let h1 := layer true x (agg x) (w1 0) (b1 0) (w2 0) (b2 0)
  let h2 := layer true h1 (agg h1) (w1 1) (b1 1) (w2 1) (b2 1)
  let h3 := layer true h2 (agg h2) (w1 2) (b1 2) (w2 2) (b2 2)
  let h4 := layer false h3 (agg h3) (w1 3) (b1 3) (w2 3) (b2 3)
  let p := pooled (sums h4) cnt
  (p, logits p wl bl)

/-! ## A layer's weights cut out of the stacked weight arrays, read at an entry -/

variable {α : Type}

/-- Layer `o`'s weight matrix — the stacked array's slab `o` with its unit axis dropped — at (l, k). -/
theorem wslab_apply (o : Nat) (ho : o < 4) (w : (⟨3, ![4, 128, 128]⟩ : Shape).Idx → α)
    (hs : (⟨3, ![4, 128, 128]⟩ : Shape).Slices ![o, 0, 0] ⟨3, ![1, 128, 128]⟩)
    (hc : (⟨3, ![1, 128, 128]⟩ : Shape).ShapeCasts ⟨2, ![128, 128]⟩) (l k : Fin 128) :
    shapeCast (⟨2, ![128, 128]⟩ : Shape) (extractStridedSlice (⟨3, ![1, 128, 128]⟩ : Shape) ![o, 0, 0] w hs) hc (ix2 l k)
      = w (ix3 ⟨o, ho⟩ l k) := by
  rw [shapeCast_apply _ hc (ix2 l k) (ix3 0 l k) (by
    rewrite [Shape.rowMajor_val_three, Shape.rowMajor_val_two]
    show (0 * 128 + l.val) * 128 + k.val = l.val * 128 + k.val; omega)]
  exact extractStridedSlice_apply ![o, 0, 0] w hs (ix3 0 l k) (ix3 ⟨o, ho⟩ l k) (fun a => match a with
    | ⟨0, _⟩ => by show o = o + 0; omega
    | ⟨1, _⟩ => by show l.val = 0 + l.val; omega
    | ⟨2, _⟩ => by show k.val = 0 + k.val; omega)

/-- Layer `o`'s bias — the stacked array's row `o` as a vector — at `k`. -/
theorem bvec_apply (o : Nat) (ho : o < 4) (b : (⟨2, ![4, 128]⟩ : Shape).Idx → α)
    (hs : (⟨2, ![4, 128]⟩ : Shape).Slices ![o, 0] ⟨2, ![1, 128]⟩)
    (hc : (⟨2, ![1, 128]⟩ : Shape).ShapeCasts ⟨1, ![128]⟩) (k : Fin 128) :
    shapeCast (⟨1, ![128]⟩ : Shape) (extractStridedSlice (⟨2, ![1, 128]⟩ : Shape) ![o, 0] b hs) hc (ix1 k)
      = b (ix2 ⟨o, ho⟩ k) := by
  rw [shapeCast_apply _ hc (ix1 k) (ix2 0 k) (by
    rewrite [Shape.rowMajor_val_two, Shape.rowMajor_val_one]
    show 0 * 128 + k.val = k.val; omega)]
  exact extractStridedSlice_apply ![o, 0] b hs (ix2 0 k) (ix2 ⟨o, ho⟩ k) (fun a => match a with
    | ⟨0, _⟩ => by show o = o + 0; omega
    | ⟨1, _⟩ => by show k.val = 0 + k.val; omega)

/-- A vector laid out as a one-row matrix, at (0, k). -/
theorem rowOf_apply (v : (⟨1, ![128]⟩ : Shape).Idx → α) (hc : (⟨1, ![128]⟩ : Shape).ShapeCasts ⟨2, ![1, 128]⟩) (k : Fin 128) :
    shapeCast (⟨2, ![1, 128]⟩ : Shape) v hc (ix2 0 k) = v (ix1 k) :=
  shapeCast_apply v hc (ix2 0 k) (ix1 k) (by
    rewrite [Shape.rowMajor_val_two, Shape.rowMajor_val_one]
    show k.val = 0 * 128 + k.val; omega)

end Cert.Spec

end
-- ==== Proof.KPay.lean ====
/-
  What each kernel body stores, read at one entry, over the extended reals.

  A layer's body works on a block of 5000 node rows: it adds the two loaded blocks, multiplies by the first weight
  matrix (a product into a zero accumulator is the plain sum over the contracted axis), adds the bias row, takes
  `max · 0`, multiplies by the second weight matrix and adds the second bias row (and takes `max · 0` again on all
  layers but the last). Narrowing a value to a shorter float format changes nothing here. So entry (p, q) of what the
  body stores is the layer's row function of row p of the two loaded blocks. The head's body divides the sums by the
  counts raised to at least one, and multiplies the quotient by the last weight matrix.
-/
import proofs.«425847_j77086073028963_1_alg».proof.Proof.Gen.KernelIdeal.Skeleton
import proofs.«425847_j77086073028963_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-! ## The two matrix products, at an entry -/

theorem lhsB_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsB_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsB_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a weight matrix into a zero accumulator: entry (p, q) is the sum over k of a(p, k) · b(k, q). -/
theorem matmulB_apply {φ₁ φ₂ : FTy} (a : FVec Ideal S5000x128 φ₁) (b : FVec Ideal S128x128 φ₂) (p : Fin 5000) (q : Fin 128) :
    matmul dot_S5000x128_S128x128_S5000x128_1_0_0_1_n_n none a b (constant S5000x128 .f32 0x00000000#32) (ix2 p q) = ∑ k : Fin 128, a (ix2 p k) * b (ix2 k q) := by
  show FloatOps.matmul dot_S5000x128_S128x128_S5000x128_1_0_0_1_n_n none a b (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

theorem lhsH_0 (i : S64x32.Idx) (q : dot_S64x128_S128x32_S64x32_1_0_0_1_n_n.contr.Idx) :
    (dot_S64x128_S128x32_S64x32_1_0_0_1_n_n.lhsIdx i q 0).val = (i 0).val := by
  unfold DotDims.lhsIdx
  rw [dif_neg (show ¬(0 : Fin S64x128.rank) ∈ dot_S64x128_S128x32_S64x32_1_0_0_1_n_n.lhsBatch by decide), dif_pos (show (0 : Fin S64x128.rank) ∈ dot_S64x128_S128x32_S64x32_1_0_0_1_n_n.lhsNonContracting by decide)]
  rfl
theorem lhsH_1 (i : S64x32.Idx) (q : dot_S64x128_S128x32_S64x32_1_0_0_1_n_n.contr.Idx) :
    (dot_S64x128_S128x32_S64x32_1_0_0_1_n_n.lhsIdx i q 1).val = (q ⟨0, by decide⟩).val :=
  dot_S64x128_S128x32_S64x32_1_0_0_1_n_n.lhsIdx_val_of_single rfl i q
theorem rhsH_0 (i : S64x32.Idx) (q : dot_S64x128_S128x32_S64x32_1_0_0_1_n_n.contr.Idx) :
    (dot_S64x128_S128x32_S64x32_1_0_0_1_n_n.rhsIdx i q 0).val = (q ⟨0, by decide⟩).val :=
  dot_S64x128_S128x32_S64x32_1_0_0_1_n_n.rhsIdx_val_of_single rfl i q
theorem rhsH_1 (i : S64x32.Idx) (q : dot_S64x128_S128x32_S64x32_1_0_0_1_n_n.contr.Idx) :
    (dot_S64x128_S128x32_S64x32_1_0_0_1_n_n.rhsIdx i q 1).val = (i 1).val := by
  unfold DotDims.rhsIdx
  rw [dif_neg (show ¬(1 : Fin S128x32.rank) ∈ dot_S64x128_S128x32_S64x32_1_0_0_1_n_n.rhsBatch by decide), dif_pos (show (1 : Fin S128x32.rank) ∈ dot_S64x128_S128x32_S64x32_1_0_0_1_n_n.rhsNonContracting by decide)]
  rfl

/-- The head's product: entry (p, q) is the sum over k of a(p, k) · b(k, q). -/
theorem matmulH_apply {φ₁ φ₂ : FTy} (a : FVec Ideal S64x128 φ₁) (b : FVec Ideal S128x32 φ₂) (p : Fin 64) (q : Fin 32) :
    matmul dot_S64x128_S128x32_S64x32_1_0_0_1_n_n none a b (constant S64x32 .f32 0x00000000#32) (ix2 p q) = ∑ k : Fin 128, a (ix2 p k) * b (ix2 k q) := by
  show FloatOps.matmul dot_S64x128_S128x32_S64x32_1_0_0_1_n_n none a b (constant S64x32 .f32 0x00000000#32) (ix2 p q) = _
  rw [Ideal.matmul_constant_zero_apply, ← Equiv.sum_comp (ValueIdx.contrEquiv1 dot_S64x128_S128x32_S64x32_1_0_0_1_n_n 128 rfl rfl).symm]
  refine Finset.sum_congr rfl fun k _ => ?_
  have hk := ValueIdx.contrEquiv1_symm_val dot_S64x128_S128x32_S64x32_1_0_0_1_n_n 128 rfl rfl k
  have el : dot_S64x128_S128x32_S64x32_1_0_0_1_n_n.lhsIdx (ix2 p q) ((ValueIdx.contrEquiv1 dot_S64x128_S128x32_S64x32_1_0_0_1_n_n 128 rfl rfl).symm k) = ix2 p k := funext fun a => Fin.ext (by
    match a with
    | ⟨0, _⟩ => exact lhsH_0 _ _
    | ⟨1, _⟩ => exact (lhsH_1 _ _).trans hk)
  have er : dot_S64x128_S128x32_S64x32_1_0_0_1_n_n.rhsIdx (ix2 p q) ((ValueIdx.contrEquiv1 dot_S64x128_S128x32_S64x32_1_0_0_1_n_n 128 rfl rfl).symm k) = ix2 k q := funext fun a => Fin.ext (by
    match a with
    | ⟨0, _⟩ => exact (rhsH_0 _ _).trans hk
    | ⟨1, _⟩ => exact rhsH_1 _ _)
  rw [el, er]

/-! ## A bias row laid under every row of a block -/

theorem biasB_apply {α : Type} (x : S1x128.Idx → α) (h : S1x128.Broadcasts S5000x128) (p : Fin 5000) (q : Fin 128) :
    broadcastTo S5000x128 x h (ix2 p q) = x (ix2 0 q) :=
  broadcastTo_apply x h (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

theorem biasH_apply {α : Type} (x : S1x32.Idx → α) (h : S1x32.Broadcasts S64x32) (p : Fin 64) (q : Fin 32) :
    broadcastTo S64x32 x h (ix2 p q) = x (ix2 0 q) :=
  broadcastTo_apply x h (ix2 p q) (ix2 0 q) (fun a => match a with
    | ⟨0, _⟩ => by show 0 = if (1 : Nat) = 1 then 0 else _; rw [if_pos rfl]
    | ⟨1, _⟩ => by show q.val = if (32 : Nat) = 1 then 0 else q.val; rw [if_neg (by decide)])

/-- A count column laid along every column of the pooled block. -/
theorem cntH_apply {α : Type} (x : S64x1.Idx → α) (h : S64x1.Broadcasts S64x128) (p : Fin 64) (q : Fin 128) :
    broadcastTo S64x128 x h (ix2 p q) = x (ix2 p 0) :=
  broadcastTo_apply x h (ix2 p q) (ix2 p 0) (fun a => match a with
    | ⟨0, _⟩ => by show p.val = if (64 : Nat) = 1 then 0 else p.val; rw [if_neg (by decide)]
    | ⟨1, _⟩ => by show 0 = if (1 : Nat) = 1 then 0 else _; rw [if_pos rfl])

/-! ## The layers' bodies -/

/-- The term every layer body computes before its closing step, as one function of the six loaded blocks. -/
def bodyTerm (x0 x1 : Vec Ideal S5000x128 .f32) (x2 : Vec Ideal S128x128 .f32) (x3 : Vec Ideal S1x128 .f32)
    (x4 : Vec Ideal S128x128 .f32) (x5 : Vec Ideal S1x128 .f32) : FVec Ideal S5000x128 .f32 :=
  addf (matmul dot_S5000x128_S128x128_S5000x128_1_0_0_1_n_n none
      (truncf .bf16 (maximumf (addf (matmul dot_S5000x128_S128x128_S5000x128_1_0_0_1_n_n none (truncf .bf16 (addf x0 x1) bitsLt_bf16_f32) (truncf .bf16 x2 bitsLt_bf16_f32) (constant S5000x128 .f32 0x00000000#32))
          (broadcastTo S5000x128 x3 broadcasts_S1x128_S5000x128)) (broadcast S5000x128 (Scalar.ofBits .f32 0x00000000#32))) bitsLt_bf16_f32)
      (truncf .bf16 x4 bitsLt_bf16_f32) (constant S5000x128 .f32 0x00000000#32))
    (broadcastTo S5000x128 x5 broadcasts_S1x128_S5000x128)

theorem zero_word : (Scalar.ofBits (F := Ideal) .f32 0x00000000#32 : EReal) = 0 := Ideal.ofBits_zero_f32

/-- Entry (p, q) of the body's term is the layer's row function of row p of the loaded blocks. -/
theorem bodyTerm_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    bodyTerm x0 x1 x2 x3 x4 x5 (ix2 p q)
      = Cert.Spec.rowAt (fun l => x0 (ix2 p l)) (fun l => x1 (ix2 p l)) (fun l k => x2 (ix2 l k)) (fun k => x3 (ix2 0 k))
          (fun k j => x4 (ix2 k j)) (fun j => x5 (ix2 0 j)) q := by
  unfold bodyTerm Cert.Spec.rowAt Cert.Spec.hiddenAt
  rw [addf_apply, matmulB_apply, biasB_apply]
  refine congrArg (· + x5 (ix2 0 q)) (Finset.sum_congr rfl fun k _ => ?_)
  rw [truncf_apply, truncf_apply, maximumf_apply, addf_apply, matmulB_apply, biasB_apply, broadcast_apply, zero_word]
  rfl

theorem k0_pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = max (Cert.Spec.rowAt (fun l => x0 (ix2 p l)) (fun l => x1 (ix2 p l)) (fun l k => x2 (ix2 l k)) (fun k => x3 (ix2 0 k))
          (fun k j => x4 (ix2 k j)) (fun j => x5 (ix2 0 j)) q) 0 := by
  rw [← bodyTerm_apply]
  unfold k0_pay1 bodyTerm
  simp only [shapeCast_self]
  rw [maximumf_apply, broadcast_apply, zero_word]

theorem k1_pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 (F := Ideal) x0 x1 x2 x3 x4 x5 (ix2 p q)
      = max (Cert.Spec.rowAt (fun l => x0 (ix2 p l)) (fun l => x1 (ix2 p l)) (fun l k => x2 (ix2 l k)) (fun k => x3 (ix2 0 k))
          (fun k j => x4 (ix2 k j)) (fun j => x5 (ix2 0 j)) q) 0 := by
  rw [← bodyTerm_apply]
  unfold k1_pay1 bodyTerm
  simp only [shapeCast_self]
  rw [maximumf_apply, broadcast_apply, zero_word]

theorem k2_pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k2_pay1 (F := Ideal) x0 x1 x2 x3 x4 x5 (ix2 p q)
      = max (Cert.Spec.rowAt (fun l => x0 (ix2 p l)) (fun l => x1 (ix2 p l)) (fun l k => x2 (ix2 l k)) (fun k => x3 (ix2 0 k))
          (fun k j => x4 (ix2 k j)) (fun j => x5 (ix2 0 j)) q) 0 := by
  rw [← bodyTerm_apply]
  unfold k2_pay1 bodyTerm
  simp only [shapeCast_self]
  rw [maximumf_apply, broadcast_apply, zero_word]

/-- The last layer's body has no closing `max · 0`. -/
theorem k3_pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k3_pay1 (F := Ideal) x0 x1 x2 x3 x4 x5 (ix2 p q)
      = Cert.Spec.rowAt (fun l => x0 (ix2 p l)) (fun l => x1 (ix2 p l)) (fun l k => x2 (ix2 l k)) (fun k => x3 (ix2 0 k))
          (fun k j => x4 (ix2 k j)) (fun j => x5 (ix2 0 j)) q := by
  rw [← bodyTerm_apply]
  unfold k3_pay1 bodyTerm
  simp only [shapeCast_self]

/-! ## The head's body -/

/-- The pooled block at (p, q): the sum divided by the count raised to at least one. -/
theorem k4_pay1_apply (cnt : Vec Ideal S64x1 .f32) (sums : Vec Ideal S64x128 .f32) (p : Fin 64) (q : Fin 128) :
    k4_pay1 (F := Ideal) cnt sums (ix2 p q) = Ideal.div (sums (ix2 p q)) (max (cnt (ix2 p 0)) (Ideal.ofBits .f32 0x3F800000#32)) := by
  unfold k4_pay1
  simp only [shapeCast_self]
  rw [divf_apply, cntH_apply, maximumf_apply, broadcast_apply]
  rfl

/-- The scores block at (p, q): the pooled row times the weight column, plus the bias. -/
theorem k4_pay2_apply (cnt : Vec Ideal S64x1 .f32) (sums : Vec Ideal S64x128 .f32) (w : Vec Ideal S128x32 .f32) (b : Vec Ideal S1x32 .f32)
    (p : Fin 64) (q : Fin 32) :
    k4_pay2 (F := Ideal) cnt sums w b (ix2 p q) = (∑ k : Fin 128, k4_pay1 (F := Ideal) cnt sums (ix2 p k) * w (ix2 k q)) + b (ix2 0 q) := by
  unfold k4_pay2
  simp only [shapeCast_self]
  rw [addf_apply, matmulH_apply, biasH_apply]
  rfl

end Cert.KernelIdeal.Hand

end
-- ==== Proof.KReg0.lean ====
/-
  Region 0: the layer's output array after the region, as one function of the arrays the region finds.

  The grid has ten points; point t loads rows 5000·t … 5000·t + 4999 of the feature array and of the neighbour sums,
  the whole weight matrices and bias rows, and writes back the same rows of the output. Each written entry is the
  layer's row function of the loaded rows, so block t of the output is block t of `Cert.Spec.layer` of the whole
  arrays; the ten blocks cover the output array.
-/
import proofs.«425847_j77086073028963_1_alg».proof.Proof.Gen.KernelIdeal.Frame
import proofs.«425847_j77086073028963_1_alg».proof.Proof.KPay
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The arrays region 0 finds, at their literal types. -/
abbrev hIn0 (c : Dev nD) : FVec Ideal S50000x128 .f32 := V c main_arg0
abbrev gIn0 (c : Dev nD) : FVec Ideal S50000x128 .f32 := V c main_v7
abbrev w1In0 (c : Dev nD) : FVec Ideal S128x128 .f32 := V c main_v9
abbrev b1In0 (c : Dev nD) : FVec Ideal S1x128 .f32 := V c main_v16
abbrev w2In0 (c : Dev nD) : FVec Ideal S128x128 .f32 := V c main_v13
abbrev b2In0 (c : Dev nD) : FVec Ideal S1x128 .f32 := V c main_v17

/-- What the region's output array holds after the region. -/
def layerOut0 (c : Dev nD) : FVec Ideal S50000x128 .f32 :=
  Cert.Spec.layer true (hIn0 V c) (gIn0 V c) (fun l k => w1In0 V c (ix2 l k)) (fun k => b1In0 V c (ix2 0 k))
    (fun k j => w2In0 V c (ix2 k j)) (fun j => b2In0 V c (ix2 0 j))

/-- The printed index maps over the grid: the two row-blocked inputs and the output move together along the rows,
    the weights and biases stay at block (0, 0). -/
theorem idx0 : ∀ t : Fin cfg0.N, win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row p of the feature block at point t is row 5000·t + p of the feature array. -/
theorem hblk0 (c : Dev nD) (t : Fin cfg0.N) (p : Fin 5000) (l : Fin 128) (r : Fin 50000) (hr : r.val = t.val * 5000 + p.val) :
    (iblk0 V c 0 t : Vec Ideal S5000x128 .f32) (ix2 p l) = hIn0 V c (ix2 r l) := by
  obtain ⟨-, -, e0, e1, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * l.val = l.val; rw [e1]; omega

/-- Row p of the neighbour-sum block at point t is row 5000·t + p of the neighbour sums. -/
theorem gblk0 (c : Dev nD) (t : Fin cfg0.N) (p : Fin 5000) (l : Fin 128) (r : Fin 50000) (hr : r.val = t.val * 5000 + p.val) :
    (iblk0 V c 1 t : Vec Ideal S5000x128 .f32) (ix2 p l) = gIn0 V c (ix2 r l) := by
  obtain ⟨-, -, -, -, e0, e1, -⟩ := idx0 t
  unfold iblk0
  rw [View.read_apply]
  show V c main_v7 _ = V c main_v7 _
  refine congrArg (V c main_v7) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * l.val = l.val; rw [e1]; omega

/-- The weight and bias blocks are the whole arrays at every point. -/
theorem w1blk0 (c : Dev nD) (t : Fin cfg0.N) (l k : Fin 128) :
    (iblk0 V c 2 t : Vec Ideal S128x128 .f32) (ix2 l k) = w1In0 V c (ix2 l k) := by
  obtain ⟨-, -, -, -, -, -, e0, e1, -⟩ := idx0 t
  unfold iblk0
  rw [View.read_apply]
  show V c main_v9 _ = V c main_v9 _
  refine congrArg (V c main_v9) (funext fun a => Fin.ext ?_)
  match a with
  | ⟨0, _⟩ => show win0_2.index t (0 : Fin 2) * 128 + 1 * l.val = l.val; rw [e0]; omega
  | ⟨1, _⟩ => show win0_2.index t (1 : Fin 2) * 128 + 1 * k.val = k.val; rw [e1]; omega

theorem b1blk0 (c : Dev nD) (t : Fin cfg0.N) (k : Fin 128) :
    (iblk0 V c 3 t : Vec Ideal S1x128 .f32) (ix2 0 k) = b1In0 V c (ix2 0 k) := by
  obtain ⟨-, -, -, -, -, -, -, -, e0, e1, -⟩ := idx0 t
  unfold iblk0
  rw [View.read_apply]
  show V c main_v16 _ = V c main_v16 _
  refine congrArg (V c main_v16) (funext fun a => Fin.ext ?_)
  match a with
  | ⟨0, _⟩ => show win0_3.index t (0 : Fin 2) * 1 + 1 * 0 = 0; rw [e0]
  | ⟨1, _⟩ => show win0_3.index t (1 : Fin 2) * 128 + 1 * k.val = k.val; rw [e1]; omega

theorem w2blk0 (c : Dev nD) (t : Fin cfg0.N) (l k : Fin 128) :
    (iblk0 V c 4 t : Vec Ideal S128x128 .f32) (ix2 l k) = w2In0 V c (ix2 l k) := by
  obtain ⟨-, -, -, -, -, -, -, -, -, -, e0, e1, -⟩ := idx0 t
  unfold iblk0
  rw [View.read_apply]
  show V c main_v13 _ = V c main_v13 _
  refine congrArg (V c main_v13) (funext fun a => Fin.ext ?_)
  match a with
  | ⟨0, _⟩ => show win0_4.index t (0 : Fin 2) * 128 + 1 * l.val = l.val; rw [e0]; omega
  | ⟨1, _⟩ => show win0_4.index t (1 : Fin 2) * 128 + 1 * k.val = k.val; rw [e1]; omega

theorem b2blk0 (c : Dev nD) (t : Fin cfg0.N) (k : Fin 128) :
    (iblk0 V c 5 t : Vec Ideal S1x128 .f32) (ix2 0 k) = b2In0 V c (ix2 0 k) := by
  obtain ⟨-, -, -, -, -, -, -, -, -, -, -, -, e0, e1⟩ := idx0 t
  unfold iblk0
  rw [View.read_apply]
  show V c main_v17 _ = V c main_v17 _
  refine congrArg (V c main_v17) (funext fun a => Fin.ext ?_)
  match a with
  | ⟨0, _⟩ => show win0_5.index t (0 : Fin 2) * 1 + 1 * 0 = 0; rw [e0]
  | ⟨1, _⟩ => show win0_5.index t (1 : Fin 2) * 128 + 1 * k.val = k.val; rw [e1]; omega

/-- What point t writes back is block t of the layer's output. -/
theorem flushed0 (c : Dev nD) (t : Fin cfg0.N) :
    (dat0 V c).flushed 6 t = ((cfg0.win 6).blk t).view.read (Elt Ideal) (layerOut0 V c) := by
  show (cfg0.win 6).cut (grid0.coords t) ((dat0 V c).after 6 t) = _
  rw [after0_6]
  unfold out0_6
  rw [View.canon_unit_zero hz0]
  simp only [View.ld_unit_zero (S := S5000x128) hz0, View.ld_unit_zero (S := S128x128) hz0, View.ld_unit_zero (S := S1x128) hz0]
  obtain ⟨o0, o1, -⟩ := idx0 t
  funext j
  obtain ⟨p, q, rfl⟩ : ∃ (p : Fin 5000) (q : Fin 128), j = ix2 p q := ⟨j 0, j 1, eq_ix2 j⟩
  have ht : t.val < 10 := by have h1 := t.isLt; have h2 : cfg0.N = 10 := N_0; omega
  let r : Fin 50000 := ⟨t.val * 5000 + p.val, by have := p.isLt; omega⟩
  have hemb : ((cfg0.win 6).blk t).view.emb (ix2 p q) = (ix2 r q : S50000x128.Idx) := funext fun a => Fin.ext (by
    match a with
    | ⟨0, _⟩ => show win0_6.index t (0 : Fin 2) * 5000 + 1 * p.val = t.val * 5000 + p.val; rw [o0]; omega
    | ⟨1, _⟩ => show win0_6.index t (1 : Fin 2) * 128 + 1 * q.val = q.val; rw [o1]; omega)
  refine (k0_pay1_apply (iblk0 V c 0 t) (iblk0 V c 1 t) (iblk0 V c 2 t) (iblk0 V c 3 t) (iblk0 V c 4 t) (iblk0 V c 5 t) p q).trans ?_
  show _ = layerOut0 V c (((cfg0.win 6).blk t).view.emb (ix2 p q))
  rw [hemb]
  unfold layerOut0 Cert.Spec.layer
  have e0 : (fun l => (iblk0 V c 0 t : Vec Ideal S5000x128 .f32) (ix2 p l)) = fun l => hIn0 V c (ix2 r l) := funext fun l => hblk0 V c t p l r rfl
  have e1 : (fun l => (iblk0 V c 1 t : Vec Ideal S5000x128 .f32) (ix2 p l)) = fun l => gIn0 V c (ix2 r l) := funext fun l => gblk0 V c t p l r rfl
  have e2 : (fun l k => (iblk0 V c 2 t : Vec Ideal S128x128 .f32) (ix2 l k)) = fun l k => w1In0 V c (ix2 l k) := funext fun l => funext fun k => w1blk0 V c t l k
  have e3 : (fun k => (iblk0 V c 3 t : Vec Ideal S1x128 .f32) (ix2 0 k)) = fun k => b1In0 V c (ix2 0 k) := funext fun k => b1blk0 V c t k
  have e4 : (fun l k => (iblk0 V c 4 t : Vec Ideal S128x128 .f32) (ix2 l k)) = fun l k => w2In0 V c (ix2 l k) := funext fun l => funext fun k => w2blk0 V c t l k
  have e5 : (fun k => (iblk0 V c 5 t : Vec Ideal S1x128 .f32) (ix2 0 k)) = fun k => b2In0 V c (ix2 0 k) := funext fun k => b2blk0 V c t k
  rw [e0, e1, e2, e3, e4, e5]
  rfl

/-- An index of the output array is in point t's block iff its row is among the block's 5000 rows. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v18).slice (win0_6.rect t)).set ↔ _
  rw [View.set_slice_whole, Rect.mem_set_unit]
  exact Iff.rfl

/-- After the region the output array is the layer's output of the arrays the region found. -/
theorem arr0 (c : Dev nD) : (dat0 V c).arrAt 6 cfg0.N = layerOut0 V c :=
  (dat0 V c).arrAt_eq_of_cover 6 (layerOut0 V c) (fun t _ => flushed0 V c t) fun i => by
    have hi0 : (i 0).val < 50000 := (i 0).isLt
    have hi1 : (i 1).val < 128 := (i 1).isLt
    let t : Fin cfg0.N := ⟨(i 0).val / 5000, by rw [show cfg0.N = 10 from N_0]; omega⟩
    obtain ⟨o0, o1, -⟩ := idx0 t
    refine ⟨t, flush0_6 t, ?_⟩
    rw [mem_blk0]
    intro a
    match a with
    | ⟨0, _⟩ => show win0_6.index t (0 : Fin 2) * 5000 ≤ (i 0).val ∧ (i 0).val < win0_6.index t (0 : Fin 2) * 5000 + 5000; rw [o0]; show (i 0).val / 5000 * 5000 ≤ (i 0).val ∧ (i 0).val < (i 0).val / 5000 * 5000 + 5000; omega
    | ⟨1, _⟩ => show win0_6.index t (1 : Fin 2) * 128 ≤ (i 1).val ∧ (i 1).val < win0_6.index t (1 : Fin 2) * 128 + 128; rw [o1]; omega

end Cert.KernelIdeal.Hand

end
-- ==== Proof.KReg1.lean ====
/-
  Region 1: the layer's output array after the region, as one function of the arrays the region finds.

  The grid has ten points; point t loads rows 5000·t … 5000·t + 4999 of the feature array and of the neighbour sums,
  the whole weight matrices and bias rows, and writes back the same rows of the output. Each written entry is the
  layer's row function of the loaded rows, so block t of the output is block t of `Cert.Spec.layer` of the whole
  arrays; the ten blocks cover the output array.
-/
import proofs.«425847_j77086073028963_1_alg».proof.Proof.Gen.KernelIdeal.Frame
import proofs.«425847_j77086073028963_1_alg».proof.Proof.KPay
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The arrays region 1 finds, at their literal types. -/
abbrev hIn1 (c : Dev nD) : FVec Ideal S50000x128 .f32 := V c main_v18
abbrev gIn1 (c : Dev nD) : FVec Ideal S50000x128 .f32 := V c main_v22
abbrev w1In1 (c : Dev nD) : FVec Ideal S128x128 .f32 := V c main_v24
abbrev b1In1 (c : Dev nD) : FVec Ideal S1x128 .f32 := V c main_v31
abbrev w2In1 (c : Dev nD) : FVec Ideal S128x128 .f32 := V c main_v28
abbrev b2In1 (c : Dev nD) : FVec Ideal S1x128 .f32 := V c main_v32

/-- What the region's output array holds after the region. -/
def layerOut1 (c : Dev nD) : FVec Ideal S50000x128 .f32 :=
  Cert.Spec.layer true (hIn1 V c) (gIn1 V c) (fun l k => w1In1 V c (ix2 l k)) (fun k => b1In1 V c (ix2 0 k))
    (fun k j => w2In1 V c (ix2 k j)) (fun j => b2In1 V c (ix2 0 j))

/-- The printed index maps over the grid: the two row-blocked inputs and the output move together along the rows,
    the weights and biases stay at block (0, 0). -/
theorem idx1 : ∀ t : Fin cfg1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row p of the feature block at point t is row 5000·t + p of the feature array. -/
theorem hblk1 (c : Dev nD) (t : Fin cfg1.N) (p : Fin 5000) (l : Fin 128) (r : Fin 50000) (hr : r.val = t.val * 5000 + p.val) :
    (iblk1 V c 0 t : Vec Ideal S5000x128 .f32) (ix2 p l) = hIn1 V c (ix2 r l) := by
  obtain ⟨-, -, e0, e1, -⟩ := idx1 t
  unfold iblk1
  rw [View.read_apply]
  show V c main_v18 _ = V c main_v18 _
  refine congrArg (V c main_v18) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * l.val = l.val; rw [e1]; omega

/-- Row p of the neighbour-sum block at point t is row 5000·t + p of the neighbour sums. -/
theorem gblk1 (c : Dev nD) (t : Fin cfg1.N) (p : Fin 5000) (l : Fin 128) (r : Fin 50000) (hr : r.val = t.val * 5000 + p.val) :
    (iblk1 V c 1 t : Vec Ideal S5000x128 .f32) (ix2 p l) = gIn1 V c (ix2 r l) := by
  obtain ⟨-, -, -, -, e0, e1, -⟩ := idx1 t
  unfold iblk1
  rw [View.read_apply]
  show V c main_v22 _ = V c main_v22 _
  refine congrArg (V c main_v22) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * l.val = l.val; rw [e1]; omega

/-- The weight and bias blocks are the whole arrays at every point. -/
theorem w1blk1 (c : Dev nD) (t : Fin cfg1.N) (l k : Fin 128) :
    (iblk1 V c 2 t : Vec Ideal S128x128 .f32) (ix2 l k) = w1In1 V c (ix2 l k) := by
  obtain ⟨-, -, -, -, -, -, e0, e1, -⟩ := idx1 t
  unfold iblk1
  rw [View.read_apply]
  show V c main_v24 _ = V c main_v24 _
  refine congrArg (V c main_v24) (funext fun a => Fin.ext ?_)
  match a with
  | ⟨0, _⟩ => show win1_2.index t (0 : Fin 2) * 128 + 1 * l.val = l.val; rw [e0]; omega
  | ⟨1, _⟩ => show win1_2.index t (1 : Fin 2) * 128 + 1 * k.val = k.val; rw [e1]; omega

theorem b1blk1 (c : Dev nD) (t : Fin cfg1.N) (k : Fin 128) :
    (iblk1 V c 3 t : Vec Ideal S1x128 .f32) (ix2 0 k) = b1In1 V c (ix2 0 k) := by
  obtain ⟨-, -, -, -, -, -, -, -, e0, e1, -⟩ := idx1 t
  unfold iblk1
  rw [View.read_apply]
  show V c main_v31 _ = V c main_v31 _
  refine congrArg (V c main_v31) (funext fun a => Fin.ext ?_)
  match a with
  | ⟨0, _⟩ => show win1_3.index t (0 : Fin 2) * 1 + 1 * 0 = 0; rw [e0]
  | ⟨1, _⟩ => show win1_3.index t (1 : Fin 2) * 128 + 1 * k.val = k.val; rw [e1]; omega

theorem w2blk1 (c : Dev nD) (t : Fin cfg1.N) (l k : Fin 128) :
    (iblk1 V c 4 t : Vec Ideal S128x128 .f32) (ix2 l k) = w2In1 V c (ix2 l k) := by
  obtain ⟨-, -, -, -, -, -, -, -, -, -, e0, e1, -⟩ := idx1 t
  unfold iblk1
  rw [View.read_apply]
  show V c main_v28 _ = V c main_v28 _
  refine congrArg (V c main_v28) (funext fun a => Fin.ext ?_)
  match a with
  | ⟨0, _⟩ => show win1_4.index t (0 : Fin 2) * 128 + 1 * l.val = l.val; rw [e0]; omega
  | ⟨1, _⟩ => show win1_4.index t (1 : Fin 2) * 128 + 1 * k.val = k.val; rw [e1]; omega

theorem b2blk1 (c : Dev nD) (t : Fin cfg1.N) (k : Fin 128) :
    (iblk1 V c 5 t : Vec Ideal S1x128 .f32) (ix2 0 k) = b2In1 V c (ix2 0 k) := by
  obtain ⟨-, -, -, -, -, -, -, -, -, -, -, -, e0, e1⟩ := idx1 t
  unfold iblk1
  rw [View.read_apply]
  show V c main_v32 _ = V c main_v32 _
  refine congrArg (V c main_v32) (funext fun a => Fin.ext ?_)
  match a with
  | ⟨0, _⟩ => show win1_5.index t (0 : Fin 2) * 1 + 1 * 0 = 0; rw [e0]
  | ⟨1, _⟩ => show win1_5.index t (1 : Fin 2) * 128 + 1 * k.val = k.val; rw [e1]; omega

/-- What point t writes back is block t of the layer's output. -/
theorem flushed1 (c : Dev nD) (t : Fin cfg1.N) :
    (dat1 V c).flushed 6 t = ((cfg1.win 6).blk t).view.read (Elt Ideal) (layerOut1 V c) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S128x128) hz1, View.ld_unit_zero (S := S1x128) hz1]
  obtain ⟨o0, o1, -⟩ := idx1 t
  funext j
  obtain ⟨p, q, rfl⟩ : ∃ (p : Fin 5000) (q : Fin 128), j = ix2 p q := ⟨j 0, j 1, eq_ix2 j⟩
  have ht : t.val < 10 := by have h1 := t.isLt; have h2 : cfg1.N = 10 := N_1; omega
  let r : Fin 50000 := ⟨t.val * 5000 + p.val, by have := p.isLt; omega⟩
  have hemb : ((cfg1.win 6).blk t).view.emb (ix2 p q) = (ix2 r q : S50000x128.Idx) := funext fun a => Fin.ext (by
    match a with
    | ⟨0, _⟩ => show win1_6.index t (0 : Fin 2) * 5000 + 1 * p.val = t.val * 5000 + p.val; rw [o0]; omega
    | ⟨1, _⟩ => show win1_6.index t (1 : Fin 2) * 128 + 1 * q.val = q.val; rw [o1]; omega)
  refine (k1_pay1_apply (iblk1 V c 0 t) (iblk1 V c 1 t) (iblk1 V c 2 t) (iblk1 V c 3 t) (iblk1 V c 4 t) (iblk1 V c 5 t) p q).trans ?_
  show _ = layerOut1 V c (((cfg1.win 6).blk t).view.emb (ix2 p q))
  rw [hemb]
  unfold layerOut1 Cert.Spec.layer
  have e0 : (fun l => (iblk1 V c 0 t : Vec Ideal S5000x128 .f32) (ix2 p l)) = fun l => hIn1 V c (ix2 r l) := funext fun l => hblk1 V c t p l r rfl
  have e1 : (fun l => (iblk1 V c 1 t : Vec Ideal S5000x128 .f32) (ix2 p l)) = fun l => gIn1 V c (ix2 r l) := funext fun l => gblk1 V c t p l r rfl
  have e2 : (fun l k => (iblk1 V c 2 t : Vec Ideal S128x128 .f32) (ix2 l k)) = fun l k => w1In1 V c (ix2 l k) := funext fun l => funext fun k => w1blk1 V c t l k
  have e3 : (fun k => (iblk1 V c 3 t : Vec Ideal S1x128 .f32) (ix2 0 k)) = fun k => b1In1 V c (ix2 0 k) := funext fun k => b1blk1 V c t k
  have e4 : (fun l k => (iblk1 V c 4 t : Vec Ideal S128x128 .f32) (ix2 l k)) = fun l k => w2In1 V c (ix2 l k) := funext fun l => funext fun k => w2blk1 V c t l k
  have e5 : (fun k => (iblk1 V c 5 t : Vec Ideal S1x128 .f32) (ix2 0 k)) = fun k => b2In1 V c (ix2 0 k) := funext fun k => b2blk1 V c t k
  rw [e0, e1, e2, e3, e4, e5]
  rfl

/-- An index of the output array is in point t's block iff its row is among the block's 5000 rows. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v33).slice (win1_6.rect t)).set ↔ _
  rw [View.set_slice_whole, Rect.mem_set_unit]
  exact Iff.rfl

/-- After the region the output array is the layer's output of the arrays the region found. -/
theorem arr1 (c : Dev nD) : (dat1 V c).arrAt 6 cfg1.N = layerOut1 V c :=
  (dat1 V c).arrAt_eq_of_cover 6 (layerOut1 V c) (fun t _ => flushed1 V c t) fun i => by
    have hi0 : (i 0).val < 50000 := (i 0).isLt
    have hi1 : (i 1).val < 128 := (i 1).isLt
    let t : Fin cfg1.N := ⟨(i 0).val / 5000, by rw [show cfg1.N = 10 from N_1]; omega⟩
    obtain ⟨o0, o1, -⟩ := idx1 t
    refine ⟨t, flush1_6 t, ?_⟩
    rw [mem_blk1]
    intro a
    match a with
    | ⟨0, _⟩ => show win1_6.index t (0 : Fin 2) * 5000 ≤ (i 0).val ∧ (i 0).val < win1_6.index t (0 : Fin 2) * 5000 + 5000; rw [o0]; show (i 0).val / 5000 * 5000 ≤ (i 0).val ∧ (i 0).val < (i 0).val / 5000 * 5000 + 5000; omega
    | ⟨1, _⟩ => show win1_6.index t (1 : Fin 2) * 128 ≤ (i 1).val ∧ (i 1).val < win1_6.index t (1 : Fin 2) * 128 + 128; rw [o1]; omega

end Cert.KernelIdeal.Hand

end
-- ==== Proof.KReg2.lean ====
/-
  Region 2: the layer's output array after the region, as one function of the arrays the region finds.

  The grid has ten points; point t loads rows 5000·t … 5000·t + 4999 of the feature array and of the neighbour sums,
  the whole weight matrices and bias rows, and writes back the same rows of the output. Each written entry is the
  layer's row function of the loaded rows, so block t of the output is block t of `Cert.Spec.layer` of the whole
  arrays; the ten blocks cover the output array.
-/
import proofs.«425847_j77086073028963_1_alg».proof.Proof.Gen.KernelIdeal.Frame
import proofs.«425847_j77086073028963_1_alg».proof.Proof.KPay
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The arrays region 2 finds, at their literal types. -/
abbrev hIn2 (c : Dev nD) : FVec Ideal S50000x128 .f32 := V c main_v33
abbrev gIn2 (c : Dev nD) : FVec Ideal S50000x128 .f32 := V c main_v37
abbrev w1In2 (c : Dev nD) : FVec Ideal S128x128 .f32 := V c main_v39
abbrev b1In2 (c : Dev nD) : FVec Ideal S1x128 .f32 := V c main_v46
abbrev w2In2 (c : Dev nD) : FVec Ideal S128x128 .f32 := V c main_v43
abbrev b2In2 (c : Dev nD) : FVec Ideal S1x128 .f32 := V c main_v47

/-- What the region's output array holds after the region. -/
def layerOut2 (c : Dev nD) : FVec Ideal S50000x128 .f32 :=
  Cert.Spec.layer true (hIn2 V c) (gIn2 V c) (fun l k => w1In2 V c (ix2 l k)) (fun k => b1In2 V c (ix2 0 k))
    (fun k j => w2In2 V c (ix2 k j)) (fun j => b2In2 V c (ix2 0 j))

/-- The printed index maps over the grid: the two row-blocked inputs and the output move together along the rows,
    the weights and biases stay at block (0, 0). -/
theorem idx2 : ∀ t : Fin cfg2.N, win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row p of the feature block at point t is row 5000·t + p of the feature array. -/
theorem hblk2 (c : Dev nD) (t : Fin cfg2.N) (p : Fin 5000) (l : Fin 128) (r : Fin 50000) (hr : r.val = t.val * 5000 + p.val) :
    (iblk2 V c 0 t : Vec Ideal S5000x128 .f32) (ix2 p l) = hIn2 V c (ix2 r l) := by
  obtain ⟨-, -, e0, e1, -⟩ := idx2 t
  unfold iblk2
  rw [View.read_apply]
  show V c main_v33 _ = V c main_v33 _
  refine congrArg (V c main_v33) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * l.val = l.val; rw [e1]; omega

/-- Row p of the neighbour-sum block at point t is row 5000·t + p of the neighbour sums. -/
theorem gblk2 (c : Dev nD) (t : Fin cfg2.N) (p : Fin 5000) (l : Fin 128) (r : Fin 50000) (hr : r.val = t.val * 5000 + p.val) :
    (iblk2 V c 1 t : Vec Ideal S5000x128 .f32) (ix2 p l) = gIn2 V c (ix2 r l) := by
  obtain ⟨-, -, -, -, e0, e1, -⟩ := idx2 t
  unfold iblk2
  rw [View.read_apply]
  show V c main_v37 _ = V c main_v37 _
  refine congrArg (V c main_v37) (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * l.val = l.val; rw [e1]; omega

/-- The weight and bias blocks are the whole arrays at every point. -/
theorem w1blk2 (c : Dev nD) (t : Fin cfg2.N) (l k : Fin 128) :
    (iblk2 V c 2 t : Vec Ideal S128x128 .f32) (ix2 l k) = w1In2 V c (ix2 l k) := by
  obtain ⟨-, -, -, -, -, -, e0, e1, -⟩ := idx2 t
  unfold iblk2
  rw [View.read_apply]
  show V c main_v39 _ = V c main_v39 _
  refine congrArg (V c main_v39) (funext fun a => Fin.ext ?_)
  match a with
  | ⟨0, _⟩ => show win2_2.index t (0 : Fin 2) * 128 + 1 * l.val = l.val; rw [e0]; omega
  | ⟨1, _⟩ => show win2_2.index t (1 : Fin 2) * 128 + 1 * k.val = k.val; rw [e1]; omega

theorem b1blk2 (c : Dev nD) (t : Fin cfg2.N) (k : Fin 128) :
    (iblk2 V c 3 t : Vec Ideal S1x128 .f32) (ix2 0 k) = b1In2 V c (ix2 0 k) := by
  obtain ⟨-, -, -, -, -, -, -, -, e0, e1, -⟩ := idx2 t
  unfold iblk2
  rw [View.read_apply]
  show V c main_v46 _ = V c main_v46 _
  refine congrArg (V c main_v46) (funext fun a => Fin.ext ?_)
  match a with
  | ⟨0, _⟩ => show win2_3.index t (0 : Fin 2) * 1 + 1 * 0 = 0; rw [e0]
  | ⟨1, _⟩ => show win2_3.index t (1 : Fin 2) * 128 + 1 * k.val = k.val; rw [e1]; omega

theorem w2blk2 (c : Dev nD) (t : Fin cfg2.N) (l k : Fin 128) :
    (iblk2 V c 4 t : Vec Ideal S128x128 .f32) (ix2 l k) = w2In2 V c (ix2 l k) := by
  obtain ⟨-, -, -, -, -, -, -, -, -, -, e0, e1, -⟩ := idx2 t
  unfold iblk2
  rw [View.read_apply]
  show V c main_v43 _ = V c main_v43 _
  refine congrArg (V c main_v43) (funext fun a => Fin.ext ?_)
  match a with
  | ⟨0, _⟩ => show win2_4.index t (0 : Fin 2) * 128 + 1 * l.val = l.val; rw [e0]; omega
  | ⟨1, _⟩ => show win2_4.index t (1 : Fin 2) * 128 + 1 * k.val = k.val; rw [e1]; omega

theorem b2blk2 (c : Dev nD) (t : Fin cfg2.N) (k : Fin 128) :
    (iblk2 V c 5 t : Vec Ideal S1x128 .f32) (ix2 0 k) = b2In2 V c (ix2 0 k) := by
  obtain ⟨-, -, -, -, -, -, -, -, -, -, -, -, e0, e1⟩ := idx2 t
  unfold iblk2
  rw [View.read_apply]
  show V c main_v47 _ = V c main_v47 _
  refine congrArg (V c main_v47) (funext fun a => Fin.ext ?_)
  match a with
  | ⟨0, _⟩ => show win2_5.index t (0 : Fin 2) * 1 + 1 * 0 = 0; rw [e0]
  | ⟨1, _⟩ => show win2_5.index t (1 : Fin 2) * 128 + 1 * k.val = k.val; rw [e1]; omega

/-- What point t writes back is block t of the layer's output. -/
theorem flushed2 (c : Dev nD) (t : Fin cfg2.N) :
    (dat2 V c).flushed 6 t = ((cfg2.win 6).blk t).view.read (Elt Ideal) (layerOut2 V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S1x128) hz2]
  obtain ⟨o0, o1, -⟩ := idx2 t
  funext j
  obtain ⟨p, q, rfl⟩ : ∃ (p : Fin 5000) (q : Fin 128), j = ix2 p q := ⟨j 0, j 1, eq_ix2 j⟩
  have ht : t.val < 10 := by have h1 := t.isLt; have h2 : cfg2.N = 10 := N_2; omega
  let r : Fin 50000 := ⟨t.val * 5000 + p.val, by have := p.isLt; omega⟩
  have hemb : ((cfg2.win 6).blk t).view.emb (ix2 p q) = (ix2 r q : S50000x128.Idx) := funext fun a => Fin.ext (by
    match a with
    | ⟨0, _⟩ => show win2_6.index t (0 : Fin 2) * 5000 + 1 * p.val = t.val * 5000 + p.val; rw [o0]; omega
    | ⟨1, _⟩ => show win2_6.index t (1 : Fin 2) * 128 + 1 * q.val = q.val; rw [o1]; omega)
  refine (k2_pay1_apply (iblk2 V c 0 t) (iblk2 V c 1 t) (iblk2 V c 2 t) (iblk2 V c 3 t) (iblk2 V c 4 t) (iblk2 V c 5 t) p q).trans ?_
  show _ = layerOut2 V c (((cfg2.win 6).blk t).view.emb (ix2 p q))
  rw [hemb]
  unfold layerOut2 Cert.Spec.layer
  have e0 : (fun l => (iblk2 V c 0 t : Vec Ideal S5000x128 .f32) (ix2 p l)) = fun l => hIn2 V c (ix2 r l) := funext fun l => hblk2 V c t p l r rfl
  have e1 : (fun l => (iblk2 V c 1 t : Vec Ideal S5000x128 .f32) (ix2 p l)) = fun l => gIn2 V c (ix2 r l) := funext fun l => gblk2 V c t p l r rfl
  have e2 : (fun l k => (iblk2 V c 2 t : Vec Ideal S128x128 .f32) (ix2 l k)) = fun l k => w1In2 V c (ix2 l k) := funext fun l => funext fun k => w1blk2 V c t l k
  have e3 : (fun k => (iblk2 V c 3 t : Vec Ideal S1x128 .f32) (ix2 0 k)) = fun k => b1In2 V c (ix2 0 k) := funext fun k => b1blk2 V c t k
  have e4 : (fun l k => (iblk2 V c 4 t : Vec Ideal S128x128 .f32) (ix2 l k)) = fun l k => w2In2 V c (ix2 l k) := funext fun l => funext fun k => w2blk2 V c t l k
  have e5 : (fun k => (iblk2 V c 5 t : Vec Ideal S1x128 .f32) (ix2 0 k)) = fun k => b2In2 V c (ix2 0 k) := funext fun k => b2blk2 V c t k
  rw [e0, e1, e2, e3, e4, e5]
  rfl

/-- An index of the output array is in point t's block iff its row is among the block's 5000 rows. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v48).slice (win2_6.rect t)).set ↔ _
  rw [View.set_slice_whole, Rect.mem_set_unit]
  exact Iff.rfl

/-- After the region the output array is the layer's output of the arrays the region found. -/
theorem arr2 (c : Dev nD) : (dat2 V c).arrAt 6 cfg2.N = layerOut2 V c :=
  (dat2 V c).arrAt_eq_of_cover 6 (layerOut2 V c) (fun t _ => flushed2 V c t) fun i => by
    have hi0 : (i 0).val < 50000 := (i 0).isLt
    have hi1 : (i 1).val < 128 := (i 1).isLt
    let t : Fin cfg2.N := ⟨(i 0).val / 5000, by rw [show cfg2.N = 10 from N_2]; omega⟩
    obtain ⟨o0, o1, -⟩ := idx2 t
    refine ⟨t, flush2_6 t, ?_⟩
    rw [mem_blk2]
    intro a
    match a with
    | ⟨0, _⟩ => show win2_6.index t (0 : Fin 2) * 5000 ≤ (i 0).val ∧ (i 0).val < win2_6.index t (0 : Fin 2) * 5000 + 5000; rw [o0]; show (i 0).val / 5000 * 5000 ≤ (i 0).val ∧ (i 0).val < (i 0).val / 5000 * 5000 + 5000; omega
    | ⟨1, _⟩ => show win2_6.index t (1 : Fin 2) * 128 ≤ (i 1).val ∧ (i 1).val < win2_6.index t (1 : Fin 2) * 128 + 128; rw [o1]; omega

end Cert.KernelIdeal.Hand

end
-- ==== Proof.KReg3.lean ====
/-
  Region 3: the layer's output array after the region, as one function of the arrays the region finds.

  The grid has ten points; point t loads rows 5000·t … 5000·t + 4999 of the feature array and of the neighbour sums,
  the whole weight matrices and bias rows, and writes back the same rows of the output. Each written entry is the
  layer's row function of the loaded rows, so block t of the output is block t of `Cert.Spec.layer` of the whole
  arrays; the ten blocks cover the output array.
-/
import proofs.«425847_j77086073028963_1_alg».proof.Proof.Gen.KernelIdeal.Frame
import proofs.«425847_j77086073028963_1_alg».proof.Proof.KPay
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The arrays region 3 finds, at their literal types. -/
abbrev hIn3 (c : Dev nD) : FVec Ideal S50000x128 .f32 := V c main_v48
abbrev gIn3 (c : Dev nD) : FVec Ideal S50000x128 .f32 := V c main_v52
abbrev w1In3 (c : Dev nD) : FVec Ideal S128x128 .f32 := V c main_v54
abbrev b1In3 (c : Dev nD) : FVec Ideal S1x128 .f32 := V c main_v61
abbrev w2In3 (c : Dev nD) : FVec Ideal S128x128 .f32 := V c main_v58
abbrev b2In3 (c : Dev nD) : FVec Ideal S1x128 .f32 := V c main_v62

/-- What the region's output array holds after the region. -/
def layerOut3 (c : Dev nD) : FVec Ideal S50000x128 .f32 :=
  Cert.Spec.layer false (hIn3 V c) (gIn3 V c) (fun l k => w1In3 V c (ix2 l k)) (fun k => b1In3 V c (ix2 0 k))
    (fun k j => w2In3 V c (ix2 k j)) (fun j => b2In3 V c (ix2 0 j))

/-- The printed index maps over the grid: the two row-blocked inputs and the output move together along the rows,
    the weights and biases stay at block (0, 0). -/
theorem idx3 : ∀ t : Fin cfg3.N, win3_6.index t (0 : Fin 2) = t.val ∧ win3_6.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row p of the feature block at point t is row 5000·t + p of the feature array. -/
theorem hblk3 (c : Dev nD) (t : Fin cfg3.N) (p : Fin 5000) (l : Fin 128) (r : Fin 50000) (hr : r.val = t.val * 5000 + p.val) :
    (iblk3 V c 0 t : Vec Ideal S5000x128 .f32) (ix2 p l) = hIn3 V c (ix2 r l) := by
  obtain ⟨-, -, e0, e1, -⟩ := idx3 t
  unfold iblk3
  rw [View.read_apply]
  show V c main_v48 _ = V c main_v48 _
  refine congrArg (V c main_v48) (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * l.val = l.val; rw [e1]; omega

/-- Row p of the neighbour-sum block at point t is row 5000·t + p of the neighbour sums. -/
theorem gblk3 (c : Dev nD) (t : Fin cfg3.N) (p : Fin 5000) (l : Fin 128) (r : Fin 50000) (hr : r.val = t.val * 5000 + p.val) :
    (iblk3 V c 1 t : Vec Ideal S5000x128 .f32) (ix2 p l) = gIn3 V c (ix2 r l) := by
  obtain ⟨-, -, -, -, e0, e1, -⟩ := idx3 t
  unfold iblk3
  rw [View.read_apply]
  show V c main_v52 _ = V c main_v52 _
  refine congrArg (V c main_v52) (funext fun a => Fin.ext ?_)
  match a with
  | ⟨0, _⟩ => show win3_1.index t (0 : Fin 2) * 5000 + 1 * p.val = r.val; rw [e0, hr]; omega
  | ⟨1, _⟩ => show win3_1.index t (1 : Fin 2) * 128 + 1 * l.val = l.val; rw [e1]; omega

/-- The weight and bias blocks are the whole arrays at every point. -/
theorem w1blk3 (c : Dev nD) (t : Fin cfg3.N) (l k : Fin 128) :
    (iblk3 V c 2 t : Vec Ideal S128x128 .f32) (ix2 l k) = w1In3 V c (ix2 l k) := by
  obtain ⟨-, -, -, -, -, -, e0, e1, -⟩ := idx3 t
  unfold iblk3
  rw [View.read_apply]
  show V c main_v54 _ = V c main_v54 _
  refine congrArg (V c main_v54) (funext fun a => Fin.ext ?_)
  match a with
  | ⟨0, _⟩ => show win3_2.index t (0 : Fin 2) * 128 + 1 * l.val = l.val; rw [e0]; omega
  | ⟨1, _⟩ => show win3_2.index t (1 : Fin 2) * 128 + 1 * k.val = k.val; rw [e1]; omega

theorem b1blk3 (c : Dev nD) (t : Fin cfg3.N) (k : Fin 128) :
    (iblk3 V c 3 t : Vec Ideal S1x128 .f32) (ix2 0 k) = b1In3 V c (ix2 0 k) := by
  obtain ⟨-, -, -, -, -, -, -, -, e0, e1, -⟩ := idx3 t
  unfold iblk3
  rw [View.read_apply]
  show V c main_v61 _ = V c main_v61 _
  refine congrArg (V c main_v61) (funext fun a => Fin.ext ?_)
  match a with
  | ⟨0, _⟩ => show win3_3.index t (0 : Fin 2) * 1 + 1 * 0 = 0; rw [e0]
  | ⟨1, _⟩ => show win3_3.index t (1 : Fin 2) * 128 + 1 * k.val = k.val; rw [e1]; omega

theorem w2blk3 (c : Dev nD) (t : Fin cfg3.N) (l k : Fin 128) :
    (iblk3 V c 4 t : Vec Ideal S128x128 .f32) (ix2 l k) = w2In3 V c (ix2 l k) := by
  obtain ⟨-, -, -, -, -, -, -, -, -, -, e0, e1, -⟩ := idx3 t
  unfold iblk3
  rw [View.read_apply]
  show V c main_v58 _ = V c main_v58 _
  refine congrArg (V c main_v58) (funext fun a => Fin.ext ?_)
  match a with
  | ⟨0, _⟩ => show win3_4.index t (0 : Fin 2) * 128 + 1 * l.val = l.val; rw [e0]; omega
  | ⟨1, _⟩ => show win3_4.index t (1 : Fin 2) * 128 + 1 * k.val = k.val; rw [e1]; omega

theorem b2blk3 (c : Dev nD) (t : Fin cfg3.N) (k : Fin 128) :
    (iblk3 V c 5 t : Vec Ideal S1x128 .f32) (ix2 0 k) = b2In3 V c (ix2 0 k) := by
  obtain ⟨-, -, -, -, -, -, -, -, -, -, -, -, e0, e1⟩ := idx3 t
  unfold iblk3
  rw [View.read_apply]
  show V c main_v62 _ = V c main_v62 _
  refine congrArg (V c main_v62) (funext fun a => Fin.ext ?_)
  match a with
  | ⟨0, _⟩ => show win3_5.index t (0 : Fin 2) * 1 + 1 * 0 = 0; rw [e0]
  | ⟨1, _⟩ => show win3_5.index t (1 : Fin 2) * 128 + 1 * k.val = k.val; rw [e1]; omega

/-- What point t writes back is block t of the layer's output. -/
theorem flushed3 (c : Dev nD) (t : Fin cfg3.N) :
    (dat3 V c).flushed 6 t = ((cfg3.win 6).blk t).view.read (Elt Ideal) (layerOut3 V c) := by
  show (cfg3.win 6).cut (grid3.coords t) ((dat3 V c).after 6 t) = _
  rw [after3_6]
  unfold out3_6
  rw [View.canon_unit_zero hz3]
  simp only [View.ld_unit_zero (S := S5000x128) hz3, View.ld_unit_zero (S := S128x128) hz3, View.ld_unit_zero (S := S1x128) hz3]
  obtain ⟨o0, o1, -⟩ := idx3 t
  funext j
  obtain ⟨p, q, rfl⟩ : ∃ (p : Fin 5000) (q : Fin 128), j = ix2 p q := ⟨j 0, j 1, eq_ix2 j⟩
  have ht : t.val < 10 := by have h1 := t.isLt; have h2 : cfg3.N = 10 := N_3; omega
  let r : Fin 50000 := ⟨t.val * 5000 + p.val, by have := p.isLt; omega⟩
  have hemb : ((cfg3.win 6).blk t).view.emb (ix2 p q) = (ix2 r q : S50000x128.Idx) := funext fun a => Fin.ext (by
    match a with
    | ⟨0, _⟩ => show win3_6.index t (0 : Fin 2) * 5000 + 1 * p.val = t.val * 5000 + p.val; rw [o0]; omega
    | ⟨1, _⟩ => show win3_6.index t (1 : Fin 2) * 128 + 1 * q.val = q.val; rw [o1]; omega)
  refine (k3_pay1_apply (iblk3 V c 0 t) (iblk3 V c 1 t) (iblk3 V c 2 t) (iblk3 V c 3 t) (iblk3 V c 4 t) (iblk3 V c 5 t) p q).trans ?_
  show _ = layerOut3 V c (((cfg3.win 6).blk t).view.emb (ix2 p q))
  rw [hemb]
  unfold layerOut3 Cert.Spec.layer
  have e0 : (fun l => (iblk3 V c 0 t : Vec Ideal S5000x128 .f32) (ix2 p l)) = fun l => hIn3 V c (ix2 r l) := funext fun l => hblk3 V c t p l r rfl
  have e1 : (fun l => (iblk3 V c 1 t : Vec Ideal S5000x128 .f32) (ix2 p l)) = fun l => gIn3 V c (ix2 r l) := funext fun l => gblk3 V c t p l r rfl
  have e2 : (fun l k => (iblk3 V c 2 t : Vec Ideal S128x128 .f32) (ix2 l k)) = fun l k => w1In3 V c (ix2 l k) := funext fun l => funext fun k => w1blk3 V c t l k
  have e3 : (fun k => (iblk3 V c 3 t : Vec Ideal S1x128 .f32) (ix2 0 k)) = fun k => b1In3 V c (ix2 0 k) := funext fun k => b1blk3 V c t k
  have e4 : (fun l k => (iblk3 V c 4 t : Vec Ideal S128x128 .f32) (ix2 l k)) = fun l k => w2In3 V c (ix2 l k) := funext fun l => funext fun k => w2blk3 V c t l k
  have e5 : (fun k => (iblk3 V c 5 t : Vec Ideal S1x128 .f32) (ix2 0 k)) = fun k => b2In3 V c (ix2 0 k) := funext fun k => b2blk3 V c t k
  rw [e0, e1, e2, e3, e4, e5]
  rfl

/-- An index of the output array is in point t's block iff its row is among the block's 5000 rows. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v63).slice (win3_6.rect t)).set ↔ _
  rw [View.set_slice_whole, Rect.mem_set_unit]
  exact Iff.rfl

/-- After the region the output array is the layer's output of the arrays the region found. -/
theorem arr3 (c : Dev nD) : (dat3 V c).arrAt 6 cfg3.N = layerOut3 V c :=
  (dat3 V c).arrAt_eq_of_cover 6 (layerOut3 V c) (fun t _ => flushed3 V c t) fun i => by
    have hi0 : (i 0).val < 50000 := (i 0).isLt
    have hi1 : (i 1).val < 128 := (i 1).isLt
    let t : Fin cfg3.N := ⟨(i 0).val / 5000, by rw [show cfg3.N = 10 from N_3]; omega⟩
    obtain ⟨o0, o1, -⟩ := idx3 t
    refine ⟨t, flush3_6 t, ?_⟩
    rw [mem_blk3]
    intro a
    match a with
    | ⟨0, _⟩ => show win3_6.index t (0 : Fin 2) * 5000 ≤ (i 0).val ∧ (i 0).val < win3_6.index t (0 : Fin 2) * 5000 + 5000; rw [o0]; show (i 0).val / 5000 * 5000 ≤ (i 0).val ∧ (i 0).val < (i 0).val / 5000 * 5000 + 5000; omega
    | ⟨1, _⟩ => show win3_6.index t (1 : Fin 2) * 128 ≤ (i 1).val ∧ (i 1).val < win3_6.index t (1 : Fin 2) * 128 + 128; rw [o1]; omega

end Cert.KernelIdeal.Hand

end
-- ==== Proof.KReg4.lean ====
/-
  Region 4, the head: the pooled features and the class scores after the region, as functions of the arrays it finds.

  The grid has one point; every window's block is its whole array. The body divides the per-graph sums by the counts
  raised to at least one and stores the quotient (the pooled features), then multiplies it by the last weight matrix,
  adds the bias row and stores the scores.
-/
import proofs.«425847_j77086073028963_1_alg».proof.Proof.Gen.KernelIdeal.Frame
import proofs.«425847_j77086073028963_1_alg».proof.Proof.KPay
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The arrays the head finds, at their literal types. -/
abbrev sumsIn (c : Dev nD) : FVec Ideal S64x128 .f32 := V c main_v66
abbrev cntIn (c : Dev nD) : FVec Ideal S64x1 .f32 := V c main_v71
abbrev wlIn (c : Dev nD) : FVec Ideal S128x32 .f32 := V c main_arg7
abbrev blIn (c : Dev nD) : FVec Ideal S1x32 .f32 := V c main_v72

/-- The pooled features after the region. -/
def pooledOut (c : Dev nD) : FVec Ideal S64x128 .f32 :=
  Cert.Spec.pooled (sumsIn V c) (fun g => cntIn V c (ix2 g 0))

/-- The class scores after the region. -/
def logitsOut (c : Dev nD) : FVec Ideal S64x32 .f32 :=
  Cert.Spec.logits (pooledOut V c) (fun k j => wlIn V c (ix2 k j)) (fun j => blIn V c (ix2 0 j))

/-- Every window sits at block (0, 0) at the one grid point. -/
theorem idx4 : ∀ t : Fin cfg4.N,
    (win4_0.index t (0 : Fin 2) = 0 ∧ win4_0.index t (1 : Fin 2) = 0) ∧ (win4_1.index t (0 : Fin 2) = 0 ∧ win4_1.index t (1 : Fin 2) = 0)
    ∧ (win4_2.index t (0 : Fin 2) = 0 ∧ win4_2.index t (1 : Fin 2) = 0) ∧ (win4_3.index t (0 : Fin 2) = 0 ∧ win4_3.index t (1 : Fin 2) = 0)
    ∧ (win4_4.index t (0 : Fin 2) = 0 ∧ win4_4.index t (1 : Fin 2) = 0) ∧ (win4_5.index t (0 : Fin 2) = 0 ∧ win4_5.index t (1 : Fin 2) = 0) :=
  (by decide +kernel : ∀ t : Fin grid4.N, _)

theorem sumsblk (c : Dev nD) (t : Fin cfg4.N) (p : Fin 64) (q : Fin 128) :
    (iblk4 V c 0 t : Vec Ideal S64x128 .f32) (ix2 p q) = sumsIn V c (ix2 p q) := by
  have e := idx4 t
  unfold iblk4
  rw [View.read_apply]
  show V c main_v66 _ = V c main_v66 _
  refine congrArg (V c main_v66) (funext fun a => Fin.ext ?_)
  match a with
  | ⟨0, _⟩ => show win4_0.index t (0 : Fin 2) * 64 + 1 * p.val = p.val; rw [(e.1).1]; omega
  | ⟨1, _⟩ => show win4_0.index t (1 : Fin 2) * 128 + 1 * q.val = q.val; rw [(e.1).2]; omega

theorem cntblk (c : Dev nD) (t : Fin cfg4.N) (p : Fin 64) (q : Fin 1) :
    (iblk4 V c 1 t : Vec Ideal S64x1 .f32) (ix2 p q) = cntIn V c (ix2 p q) := by
  have e := idx4 t
  unfold iblk4
  rw [View.read_apply]
  show V c main_v71 _ = V c main_v71 _
  refine congrArg (V c main_v71) (funext fun a => Fin.ext ?_)
  match a with
  | ⟨0, _⟩ => show win4_1.index t (0 : Fin 2) * 64 + 1 * p.val = p.val; rw [(e.2.1).1]; omega
  | ⟨1, _⟩ => show win4_1.index t (1 : Fin 2) * 1 + 1 * q.val = q.val; rw [(e.2.1).2]; omega

theorem wlblk (c : Dev nD) (t : Fin cfg4.N) (p : Fin 128) (q : Fin 32) :
    (iblk4 V c 2 t : Vec Ideal S128x32 .f32) (ix2 p q) = wlIn V c (ix2 p q) := by
  have e := idx4 t
  unfold iblk4
  rw [View.read_apply]
  show V c main_arg7 _ = V c main_arg7 _
  refine congrArg (V c main_arg7) (funext fun a => Fin.ext ?_)
  match a with
  | ⟨0, _⟩ => show win4_2.index t (0 : Fin 2) * 128 + 1 * p.val = p.val; rw [(e.2.2.1).1]; omega
  | ⟨1, _⟩ => show win4_2.index t (1 : Fin 2) * 32 + 1 * q.val = q.val; rw [(e.2.2.1).2]; omega

theorem blblk (c : Dev nD) (t : Fin cfg4.N) (p : Fin 1) (q : Fin 32) :
    (iblk4 V c 3 t : Vec Ideal S1x32 .f32) (ix2 p q) = blIn V c (ix2 p q) := by
  have e := idx4 t
  unfold iblk4
  rw [View.read_apply]
  show V c main_v72 _ = V c main_v72 _
  refine congrArg (V c main_v72) (funext fun a => Fin.ext ?_)
  match a with
  | ⟨0, _⟩ => show win4_3.index t (0 : Fin 2) * 1 + 1 * p.val = p.val; rw [(e.2.2.2.1).1]; omega
  | ⟨1, _⟩ => show win4_3.index t (1 : Fin 2) * 32 + 1 * q.val = q.val; rw [(e.2.2.2.1).2]; omega

/-- The body's pooled entry, from the arrays the region finds. -/
theorem pooled_entry (c : Dev nD) (t : Fin cfg4.N) (p : Fin 64) (q : Fin 128) :
    k4_pay1 (F := Ideal) (iblk4 V c 1 t) (iblk4 V c 0 t) (ix2 p q) = pooledOut V c (ix2 p q) := by
  refine (k4_pay1_apply (iblk4 V c 1 t) (iblk4 V c 0 t) p q).trans ?_
  rw [sumsblk V c t p q, cntblk V c t p 0]
  rfl

/-- What the one point writes back into the pooled array is the pooled features. -/
theorem flushed4_4 (c : Dev nD) (t : Fin cfg4.N) :
    (dat4 V c).flushed 4 t = ((cfg4.win 4).blk t).view.read (Elt Ideal) (pooledOut V c) := by
  show (cfg4.win 4).cut (grid4.coords t) ((dat4 V c).after 4 t) = _
  rw [after4_4]
  unfold out4_4
  rw [View.canon_unit_zero hz4]
  simp only [View.ld_unit_zero (S := S64x128) hz4, View.ld_unit_zero (S := S64x1) hz4]
  have e := idx4 t
  funext j
  obtain ⟨p, q, rfl⟩ : ∃ (p : Fin 64) (q : Fin 128), j = ix2 p q := ⟨j 0, j 1, eq_ix2 j⟩
  have hemb : ((cfg4.win 4).blk t).view.emb (ix2 p q) = (ix2 p q : S64x128.Idx) := funext fun a => Fin.ext (by
    match a with
    | ⟨0, _⟩ => show win4_4.index t (0 : Fin 2) * 64 + 1 * p.val = p.val; rw [(e.2.2.2.2.1).1]; omega
    | ⟨1, _⟩ => show win4_4.index t (1 : Fin 2) * 128 + 1 * q.val = q.val; rw [(e.2.2.2.2.1).2]; omega)
  refine (pooled_entry V c t p q).trans ?_
  show _ = pooledOut V c (((cfg4.win 4).blk t).view.emb (ix2 p q))
  rw [hemb]

/-- What the one point writes back into the scores array is the class scores. -/
theorem flushed4_5 (c : Dev nD) (t : Fin cfg4.N) :
    (dat4 V c).flushed 5 t = ((cfg4.win 5).blk t).view.read (Elt Ideal) (logitsOut V c) := by
  show (cfg4.win 5).cut (grid4.coords t) ((dat4 V c).after 5 t) = _
  rw [after4_5]
  unfold out4_5
  rw [View.canon_unit_zero hz4]
  simp only [View.ld_unit_zero (S := S64x128) hz4, View.ld_unit_zero (S := S64x1) hz4, View.ld_unit_zero (S := S128x32) hz4, View.ld_unit_zero (S := S1x32) hz4, View.ld_unit_zero (S := S64x32) hz4]
  have e := idx4 t
  funext j
  obtain ⟨p, q, rfl⟩ : ∃ (p : Fin 64) (q : Fin 32), j = ix2 p q := ⟨j 0, j 1, eq_ix2 j⟩
  have hemb : ((cfg4.win 5).blk t).view.emb (ix2 p q) = (ix2 p q : S64x32.Idx) := funext fun a => Fin.ext (by
    match a with
    | ⟨0, _⟩ => show win4_5.index t (0 : Fin 2) * 64 + 1 * p.val = p.val; rw [(e.2.2.2.2.2).1]; omega
    | ⟨1, _⟩ => show win4_5.index t (1 : Fin 2) * 32 + 1 * q.val = q.val; rw [(e.2.2.2.2.2).2]; omega)
  refine (k4_pay2_apply (iblk4 V c 1 t) (iblk4 V c 0 t) (iblk4 V c 2 t) (iblk4 V c 3 t) p q).trans ?_
  show _ = logitsOut V c (((cfg4.win 5).blk t).view.emb (ix2 p q))
  rw [hemb, blblk V c t 0 q]
  unfold logitsOut Cert.Spec.logits
  refine congrArg (· + blIn V c (ix2 0 q)) (Finset.sum_congr rfl fun k _ => ?_)
  rw [pooled_entry V c t p k, wlblk V c t k q]

theorem mem_blk4_4 (t : Fin cfg4.N) (i : S64x128.Idx) :
    i ∈ ((cfg4.win 4).blk t).view.set ↔ ∀ a : Fin 2, win4_4.index t a * S64x128.size a ≤ (i a).val ∧ (i a).val < win4_4.index t a * S64x128.size a + S64x128.size a := by
  show i ∈ ((View.whole main_v73_0).slice (win4_4.rect t)).set ↔ _
  rw [View.set_slice_whole, Rect.mem_set_unit]
  exact Iff.rfl

theorem mem_blk4_5 (t : Fin cfg4.N) (i : S64x32.Idx) :
    i ∈ ((cfg4.win 5).blk t).view.set ↔ ∀ a : Fin 2, win4_5.index t a * S64x32.size a ≤ (i a).val ∧ (i a).val < win4_5.index t a * S64x32.size a + S64x32.size a := by
  show i ∈ ((View.whole main_v73_1).slice (win4_5.rect t)).set ↔ _
  rw [View.set_slice_whole, Rect.mem_set_unit]
  exact Iff.rfl

/-- After the region the pooled array holds the pooled features. -/
theorem arr4_4 (c : Dev nD) : (dat4 V c).arrAt 4 cfg4.N = pooledOut V c :=
  (dat4 V c).arrAt_eq_of_cover 4 (pooledOut V c) (fun t _ => flushed4_4 V c t) fun i => by
    have hi0 : (i 0).val < 64 := (i 0).isLt
    have hi1 : (i 1).val < 128 := (i 1).isLt
    have e := idx4 t4_0
    refine ⟨t4_0, (by decide +kernel : win4_4.flush t4_0 = true), ?_⟩
    rw [mem_blk4_4]
    intro a
    match a with
    | ⟨0, _⟩ => show win4_4.index t4_0 (0 : Fin 2) * 64 ≤ (i 0).val ∧ (i 0).val < win4_4.index t4_0 (0 : Fin 2) * 64 + 64; rw [(e.2.2.2.2.1).1]; omega
    | ⟨1, _⟩ => show win4_4.index t4_0 (1 : Fin 2) * 128 ≤ (i 1).val ∧ (i 1).val < win4_4.index t4_0 (1 : Fin 2) * 128 + 128; rw [(e.2.2.2.2.1).2]; omega

/-- After the region the scores array holds the class scores. -/
theorem arr4_5 (c : Dev nD) : (dat4 V c).arrAt 5 cfg4.N = logitsOut V c :=
  (dat4 V c).arrAt_eq_of_cover 5 (logitsOut V c) (fun t _ => flushed4_5 V c t) fun i => by
    have hi0 : (i 0).val < 64 := (i 0).isLt
    have hi1 : (i 1).val < 32 := (i 1).isLt
    have e := idx4 t4_0
    refine ⟨t4_0, (by decide +kernel : win4_5.flush t4_0 = true), ?_⟩
    rw [mem_blk4_5]
    intro a
    match a with
    | ⟨0, _⟩ => show win4_5.index t4_0 (0 : Fin 2) * 64 ≤ (i 0).val ∧ (i 0).val < win4_5.index t4_0 (0 : Fin 2) * 64 + 64; rw [(e.2.2.2.2.2).1]; omega
    | ⟨1, _⟩ => show win4_5.index t4_0 (1 : Fin 2) * 32 ≤ (i 1).val ∧ (i 1).val < win4_5.index t4_0 (1 : Fin 2) * 32 + 32; rw [(e.2.2.2.2.2).2]; omega

end Cert.KernelIdeal.Hand

end
-- ==== Proof.KNet.lean ====
/-
  The kernel program's two results as the network specification.

  Region by region: what a region finds in its input arrays (the features the region before left, their neighbour
  sums, the layer's weights and biases cut out of the stacked arrays) makes its output array the specification's
  layer of those; after the four layers the head's two arrays are the pooled features and the class scores of the
  last layer's output. Chained, the two result buffers hold `Cert.Spec.net` over the program's own scatter-adds.
-/
import proofs.«425847_j77086073028963_1_alg».proof.Proof.Gen.KernelIdeal.Frame
import proofs.«425847_j77086073028963_1_alg».proof.Proof.KDefs
import proofs.«425847_j77086073028963_1_alg».proof.Proof.KHost0
import proofs.«425847_j77086073028963_1_alg».proof.Proof.KHost1
import proofs.«425847_j77086073028963_1_alg».proof.Proof.KHost2
import proofs.«425847_j77086073028963_1_alg».proof.Proof.KHost3
import proofs.«425847_j77086073028963_1_alg».proof.Proof.KHost4
import proofs.«425847_j77086073028963_1_alg».proof.Proof.KReg0
import proofs.«425847_j77086073028963_1_alg».proof.Proof.KReg1
import proofs.«425847_j77086073028963_1_alg».proof.Proof.KReg2
import proofs.«425847_j77086073028963_1_alg».proof.Proof.KReg3
import proofs.«425847_j77086073028963_1_alg».proof.Proof.KReg4
import proofs.«425847_j77086073028963_1_alg».proof.Proof.Spec
import Idealize.ShloMosaic.PureOps.Ideal

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The cut-out weights at an entry -/

theorem wK_apply (o : Nat) (ho : o < 4) (w : FVec Ideal S4x128x128 .f32) (hs : S4x128x128.Slices ![o, 0, 0] S1x128x128) :
    (fun l k => wK o w hs (ix2 l k)) = fun l k => w (ix3 ⟨o, ho⟩ l k) :=
  funext fun l => funext fun k => Cert.Spec.wslab_apply o ho w hs Facts₀.shapeCasts_S1x128x128_S128x128 l k

theorem bK_apply (o : Nat) (ho : o < 4) (b : FVec Ideal S4x128 .f32) (hs : S4x128.Slices ![o, 0] S1x128) :
    (fun k => bK o b hs (ix2 0 k)) = fun k => b (ix2 ⟨o, ho⟩ k) :=
  funext fun k => (Cert.Spec.rowOf_apply _ Facts₀.shapeCasts_S128_S1x128 k).trans (Cert.Spec.bvec_apply o ho b hs Facts₀.shapeCasts_S1x128_S128 k)

/-! ## The four layers' output arrays -/

/-- Layer 1's output array after region 0, from the features it was fed. -/
theorem out0 (c : Dev nD) :
    V4 m ρ c main_v18 = Cert.Spec.layer true (m ((c : Thread nD τ).loc main_arg0)) (aggK (m ((c : Thread nD τ).loc main_arg0)) (m ((c : Thread nD τ).loc main_arg1)))
      (fun l k => (m ((c : Thread nD τ).loc main_arg3)) (ix3 0 l k)) (fun k => (m ((c : Thread nD τ).loc main_arg4)) (ix2 0 k)) (fun l k => (m ((c : Thread nD τ).loc main_arg5)) (ix3 0 l k)) (fun k => (m ((c : Thread nD τ).loc main_arg6)) (ix2 0 k)) := by
  obtain ⟨e0, e1, e2, e3, e4, e5⟩ := entry0 m ρ c
  refine ((W4_arr m ρ c 6).trans (arr0 (V3 m ρ) c)).trans ?_
  unfold layerOut0 hIn0 gIn0 w1In0 b1In0 w2In0 b2In0
  rw [e0, e1, e2, e3, e4, e5]
  rw [wK_apply 0 (by decide), bK_apply 0 (by decide), wK_apply 0 (by decide), bK_apply 0 (by decide)]
  rfl

/-- Layer 2's output array after region 1, from the features it was fed. -/
theorem out1 (c : Dev nD) :
    V7 m ρ c main_v33 = Cert.Spec.layer true (V4 m ρ c main_v18) (aggK (V4 m ρ c main_v18) (m ((c : Thread nD τ).loc main_arg1)))
      (fun l k => (m ((c : Thread nD τ).loc main_arg3)) (ix3 1 l k)) (fun k => (m ((c : Thread nD τ).loc main_arg4)) (ix2 1 k)) (fun l k => (m ((c : Thread nD τ).loc main_arg5)) (ix3 1 l k)) (fun k => (m ((c : Thread nD τ).loc main_arg6)) (ix2 1 k)) := by
  obtain ⟨e0, e1, e2, e3, e4, e5⟩ := entry1 m ρ c
  refine ((W7_arr m ρ c 6).trans (arr1 (V6 m ρ) c)).trans ?_
  unfold layerOut1 hIn1 gIn1 w1In1 b1In1 w2In1 b2In1
  rw [e0, e1, e2, e3, e4, e5]
  rw [wK_apply 1 (by decide), bK_apply 1 (by decide), wK_apply 1 (by decide), bK_apply 1 (by decide)]
  rfl

/-- Layer 3's output array after region 2, from the features it was fed. -/
theorem out2 (c : Dev nD) :
    V10 m ρ c main_v48 = Cert.Spec.layer true (V7 m ρ c main_v33) (aggK (V7 m ρ c main_v33) (m ((c : Thread nD τ).loc main_arg1)))
      (fun l k => (m ((c : Thread nD τ).loc main_arg3)) (ix3 2 l k)) (fun k => (m ((c : Thread nD τ).loc main_arg4)) (ix2 2 k)) (fun l k => (m ((c : Thread nD τ).loc main_arg5)) (ix3 2 l k)) (fun k => (m ((c : Thread nD τ).loc main_arg6)) (ix2 2 k)) := by
  obtain ⟨e0, e1, e2, e3, e4, e5⟩ := entry2 m ρ c
  refine ((W10_arr m ρ c 6).trans (arr2 (V9 m ρ) c)).trans ?_
  unfold layerOut2 hIn2 gIn2 w1In2 b1In2 w2In2 b2In2
  rw [e0, e1, e2, e3, e4, e5]
  rw [wK_apply 2 (by decide), bK_apply 2 (by decide), wK_apply 2 (by decide), bK_apply 2 (by decide)]
  rfl

/-- Layer 4's output array after region 3, from the features it was fed. -/
theorem out3 (c : Dev nD) :
    V13 m ρ c main_v63 = Cert.Spec.layer false (V10 m ρ c main_v48) (aggK (V10 m ρ c main_v48) (m ((c : Thread nD τ).loc main_arg1)))
      (fun l k => (m ((c : Thread nD τ).loc main_arg3)) (ix3 3 l k)) (fun k => (m ((c : Thread nD τ).loc main_arg4)) (ix2 3 k)) (fun l k => (m ((c : Thread nD τ).loc main_arg5)) (ix3 3 l k)) (fun k => (m ((c : Thread nD τ).loc main_arg6)) (ix2 3 k)) := by
  obtain ⟨e0, e1, e2, e3, e4, e5⟩ := entry3 m ρ c
  refine ((W13_arr m ρ c 6).trans (arr3 (V12 m ρ) c)).trans ?_
  unfold layerOut3 hIn3 gIn3 w1In3 b1In3 w2In3 b2In3
  rw [e0, e1, e2, e3, e4, e5]
  rw [wK_apply 3 (by decide), bK_apply 3 (by decide), wK_apply 3 (by decide), bK_apply 3 (by decide)]
  rfl

/-! ## The head's two arrays -/

theorem colOf_apply (v : FVec Ideal S64 .f32) (g : Fin 64) : shapeCast S64x1 v Facts₀.shapeCasts_S64_S64x1 (ix2 g 0) = v (ix1 g) :=
  shapeCast_apply v Facts₀.shapeCasts_S64_S64x1 (ix2 g 0) (ix1 g) (by
    rewrite [Shape.rowMajor_val_one, Shape.rowMajor_val_two]
    show g.val = g.val * 1 + 0; omega)

theorem rowOf32_apply (v : FVec Ideal S32 .f32) (j : Fin 32) : shapeCast S1x32 v Facts₀.shapeCasts_S32_S1x32 (ix2 0 j) = v (ix1 j) :=
  shapeCast_apply v Facts₀.shapeCasts_S32_S1x32 (ix2 0 j) (ix1 j) (by
    rewrite [Shape.rowMajor_val_one, Shape.rowMajor_val_two]
    show j.val = 0 * 32 + j.val; omega)

/-- The pooled features after region 4, from the last layer's output. -/
theorem pooled4 (c : Dev nD) :
    pooledOut (V14 m ρ) c = Cert.Spec.pooled (sumsK (V13 m ρ c main_v63) (m ((c : Thread nD τ).loc main_arg2))) (fun g => cntVecK (m ((c : Thread nD τ).loc main_arg2)) (ix1 g)) := by
  obtain ⟨e0, e1, -, -⟩ := entry4 m ρ c
  unfold pooledOut sumsIn cntIn
  rw [e0, e1]
  exact congrArg (Cert.Spec.pooled _) (funext fun g => colOf_apply _ g)

/-- The program's two result arrays at the last boundary. -/
theorem out4 (c : Dev nD) :
    W15 m ρ c (Proc.devRef .tc main_v73_0) = Cert.Spec.pooled (sumsK (V13 m ρ c main_v63) (m ((c : Thread nD τ).loc main_arg2))) (fun g => cntVecK (m ((c : Thread nD τ).loc main_arg2)) (ix1 g))
    ∧ W15 m ρ c (Proc.devRef .tc main_v73_1)
        = Cert.Spec.logits (Cert.Spec.pooled (sumsK (V13 m ρ c main_v63) (m ((c : Thread nD τ).loc main_arg2))) (fun g => cntVecK (m ((c : Thread nD τ).loc main_arg2)) (ix1 g)))
            (fun k j => (m ((c : Thread nD τ).loc main_arg7)) (ix2 k j)) (fun j => (m ((c : Thread nD τ).loc main_arg8)) (ix1 j)) := by
  obtain ⟨-, -, e2, e3⟩ := entry4 m ρ c
  refine ⟨((W15_arr m ρ c 4).trans (arr4_4 (V14 m ρ) c)).trans (pooled4 m ρ c), ?_⟩
  refine ((W15_arr m ρ c 5).trans (arr4_5 (V14 m ρ) c)).trans ?_
  unfold logitsOut wlIn blIn
  rw [pooled4 m ρ c, e2, e3]
  exact congrArg (Cert.Spec.logits _ _) (funext fun j => rowOf32_apply _ j)

/-! ## The whole program -/

/-- The network the kernel program computes, over its own host-side scatter-adds. -/
def kNet (c : Dev nD) :=
  Cert.Spec.net (fun h => aggK h (m ((c : Thread nD τ).loc main_arg1))) (fun h => sumsK h (m ((c : Thread nD τ).loc main_arg2))) (fun g => cntVecK (m ((c : Thread nD τ).loc main_arg2)) (ix1 g)) (m ((c : Thread nD τ).loc main_arg0))
    (fun o l k => (m ((c : Thread nD τ).loc main_arg3)) (ix3 o l k)) (fun o k => (m ((c : Thread nD τ).loc main_arg4)) (ix2 o k)) (fun o l k => (m ((c : Thread nD τ).loc main_arg5)) (ix3 o l k)) (fun o k => (m ((c : Thread nD τ).loc main_arg6)) (ix2 o k))
    (fun k j => (m ((c : Thread nD τ).loc main_arg7)) (ix2 k j)) (fun j => (m ((c : Thread nD τ).loc main_arg8)) (ix1 j))

/-- The two result arrays at the last boundary are the network's pooled features and class scores. -/
theorem kernel_net (c : Dev nD) :
    W15 m ρ c (Proc.devRef .tc main_v73_0) = (kNet m c).1 ∧ W15 m ρ c (Proc.devRef .tc main_v73_1) = (kNet m c).2 := by
  obtain ⟨h0, h1⟩ := out4 m ρ c
  rw [h0, h1, out3 m ρ c, out2 m ρ c, out1 m ρ c, out0 m ρ c]
  unfold kNet
  dsimp only [Cert.Spec.net]
  exact ⟨rfl, rfl⟩

end Cert.KernelIdeal.Hand

end
-- ==== Proof.RLayers.lean ====
/-
  The reference's stages are the specification's, as whole arrays.

  Each of the four layers of the reference computes, from the feature array `h` of the layer before (the node features
  for the first) and its neighbour sums `g`, the array  max((h + g)·W1 + b1, 0)·W2 + b2,  followed by a maximum with
  zero on all but the last layer. Read at a node `r` and a feature `j`, the two products are sums over the contracted
  coordinate, the layer's weight matrices are slabs of the stacked weight arrays and its biases rows of the stacked
  bias arrays, and the constant under each maximum is zero: so the entry is the specification's row of node `r` at `j`.
  The neighbour sums, the per-graph sums and the node counts are left as they are. The head divides each graph's
  feature sums by its node count raised to at least one, and the class scores are one more product and bias.
-/
import proofs.«425847_j77086073028963_1_alg».proof.Proof.Gen.ReferenceIdeal.Read
import proofs.«425847_j77086073028963_1_alg».proof.Proof.Spec
import Idealize.ShloMosaic.Lib.ValueIdx
import Idealize.ShloMosaic.Lib.StackMember
import Idealize.ShloMosaic.PureOps.Ideal.Laws

noncomputable section

namespace Cert.ReferenceIdeal.Hand

open Cert.ReferenceIdeal Cert.ReferenceIdeal.Read Idealize.ShloMosaic Idealize.ShloMosaic.ValueIdx

/-! ## The dense product at an entry -/

/-- The product of a 50000×128 array with a 128×128 matrix at (r, j): the sum over the contracted coordinate. -/
theorem dot_apply (y0 : FVec Ideal S50000x128 .f32) (y1 : FVec Ideal S128x128 .f32) (r : Fin 50000) (j : Fin 128) :
    Host.dotGeneral dot_S50000x128_S128x128_S50000x128_1_0_0_1_n_n none y0 y1 (ix2 r j)
      = ∑ k : Fin 128, y0 (ix2 r k) * y1 (ix2 k j) := by
  have e : dot_S50000x128_S128x128_S50000x128_1_0_0_1_n_n = DotDims.plain 50000 128 128 := rfl
  rw [e]
  exact StackMember.dotGeneral_plain_apply none y0 y1 r j

/-! ## The layers' weights, biases and zero constants at an entry

Layer `o`'s weight matrix is slab `o` of the stacked array with its unit axis dropped; its bias is row `o` as a vector,
laid out again as a one-row matrix and repeated down the nodes; the constant under each maximum is the word of zero. -/

theorem w1_0 (x3 : (⟨S4x128x128, .f32⟩ : BufTy).Contents (Elt Ideal)) (l k : Fin 128) :
    val_main_v16 (F := Ideal) x3 (ix2 l k) = x3 (ix3 0 l k) := by
  unfold val_main_v16 val_main_v15
  exact Cert.Spec.wslab_apply 0 (by decide) x3 _ _ l k

theorem b1_0 (x4 : (⟨S4x128, .f32⟩ : BufTy).Contents (Elt Ideal)) (r : Fin 50000) (k : Fin 128) :
    val_main_v21 (F := Ideal) x4 (ix2 r k) = x4 (ix2 0 k) := by
  have e : idx_main_v20 (idx_main_v21 (ix2 r k)) = ix1 k := funext fun a => match a with | ⟨0, _⟩ => rfl
  rw [val_main_v21_apply, val_main_v20_apply, e]
  unfold val_main_v19 val_main_v18
  exact Cert.Spec.bvec_apply 0 (by decide) x4 _ _ k

theorem z_23 (i : S50000x128.Idx) : val_main_v23 (F := Ideal) i = 0 := by
  rw [val_main_v23_apply, val_main_cst_1_apply, Ideal.ofBits_def, Ideal.ofBits_zero_f32]

theorem w2_0 (x5 : (⟨S4x128x128, .f32⟩ : BufTy).Contents (Elt Ideal)) (k j : Fin 128) :
    val_main_v26 (F := Ideal) x5 (ix2 k j) = x5 (ix3 0 k j) := by
  unfold val_main_v26 val_main_v25
  exact Cert.Spec.wslab_apply 0 (by decide) x5 _ _ k j

theorem b2_0 (x6 : (⟨S4x128, .f32⟩ : BufTy).Contents (Elt Ideal)) (r : Fin 50000) (j : Fin 128) :
    val_main_v31 (F := Ideal) x6 (ix2 r j) = x6 (ix2 0 j) := by
  have e : idx_main_v30 (idx_main_v31 (ix2 r j)) = ix1 j := funext fun a => match a with | ⟨0, _⟩ => rfl
  rw [val_main_v31_apply, val_main_v30_apply, e]
  unfold val_main_v29 val_main_v28
  exact Cert.Spec.bvec_apply 0 (by decide) x6 _ _ j

theorem z_call0 (i : S50000x128.Idx) : val_main_call0_v0 (F := Ideal) i = 0 := by
  rw [val_main_call0_v0_apply, val_main_call0_cst_apply, Ideal.ofBits_def, Ideal.ofBits_zero_f32]

theorem w1_1 (x3 : (⟨S4x128x128, .f32⟩ : BufTy).Contents (Elt Ideal)) (l k : Fin 128) :
    val_main_v46 (F := Ideal) x3 (ix2 l k) = x3 (ix3 1 l k) := by
  unfold val_main_v46 val_main_v45
  exact Cert.Spec.wslab_apply 1 (by decide) x3 _ _ l k

theorem b1_1 (x4 : (⟨S4x128, .f32⟩ : BufTy).Contents (Elt Ideal)) (r : Fin 50000) (k : Fin 128) :
    val_main_v51 (F := Ideal) x4 (ix2 r k) = x4 (ix2 1 k) := by
  have e : idx_main_v50 (idx_main_v51 (ix2 r k)) = ix1 k := funext fun a => match a with | ⟨0, _⟩ => rfl
  rw [val_main_v51_apply, val_main_v50_apply, e]
  unfold val_main_v49 val_main_v48
  exact Cert.Spec.bvec_apply 1 (by decide) x4 _ _ k

theorem z_53 (i : S50000x128.Idx) : val_main_v53 (F := Ideal) i = 0 := by
  rw [val_main_v53_apply, val_main_cst_5_apply, Ideal.ofBits_def, Ideal.ofBits_zero_f32]

theorem w2_1 (x5 : (⟨S4x128x128, .f32⟩ : BufTy).Contents (Elt Ideal)) (k j : Fin 128) :
    val_main_v56 (F := Ideal) x5 (ix2 k j) = x5 (ix3 1 k j) := by
  unfold val_main_v56 val_main_v55
  exact Cert.Spec.wslab_apply 1 (by decide) x5 _ _ k j

theorem b2_1 (x6 : (⟨S4x128, .f32⟩ : BufTy).Contents (Elt Ideal)) (r : Fin 50000) (j : Fin 128) :
    val_main_v61 (F := Ideal) x6 (ix2 r j) = x6 (ix2 1 j) := by
  have e : idx_main_v60 (idx_main_v61 (ix2 r j)) = ix1 j := funext fun a => match a with | ⟨0, _⟩ => rfl
  rw [val_main_v61_apply, val_main_v60_apply, e]
  unfold val_main_v59 val_main_v58
  exact Cert.Spec.bvec_apply 1 (by decide) x6 _ _ j

theorem z_call1 (i : S50000x128.Idx) : val_main_call1_v0 (F := Ideal) i = 0 := by
  rw [val_main_call1_v0_apply, val_main_call1_cst_apply, Ideal.ofBits_def, Ideal.ofBits_zero_f32]

theorem w1_2 (x3 : (⟨S4x128x128, .f32⟩ : BufTy).Contents (Elt Ideal)) (l k : Fin 128) :
    val_main_v76 (F := Ideal) x3 (ix2 l k) = x3 (ix3 2 l k) := by
  unfold val_main_v76 val_main_v75
  exact Cert.Spec.wslab_apply 2 (by decide) x3 _ _ l k

theorem b1_2 (x4 : (⟨S4x128, .f32⟩ : BufTy).Contents (Elt Ideal)) (r : Fin 50000) (k : Fin 128) :
    val_main_v81 (F := Ideal) x4 (ix2 r k) = x4 (ix2 2 k) := by
  have e : idx_main_v80 (idx_main_v81 (ix2 r k)) = ix1 k := funext fun a => match a with | ⟨0, _⟩ => rfl
  rw [val_main_v81_apply, val_main_v80_apply, e]
  unfold val_main_v79 val_main_v78
  exact Cert.Spec.bvec_apply 2 (by decide) x4 _ _ k

theorem z_83 (i : S50000x128.Idx) : val_main_v83 (F := Ideal) i = 0 := by
  rw [val_main_v83_apply, val_main_cst_9_apply, Ideal.ofBits_def, Ideal.ofBits_zero_f32]

theorem w2_2 (x5 : (⟨S4x128x128, .f32⟩ : BufTy).Contents (Elt Ideal)) (k j : Fin 128) :
    val_main_v86 (F := Ideal) x5 (ix2 k j) = x5 (ix3 2 k j) := by
  unfold val_main_v86 val_main_v85
  exact Cert.Spec.wslab_apply 2 (by decide) x5 _ _ k j

theorem b2_2 (x6 : (⟨S4x128, .f32⟩ : BufTy).Contents (Elt Ideal)) (r : Fin 50000) (j : Fin 128) :
    val_main_v91 (F := Ideal) x6 (ix2 r j) = x6 (ix2 2 j) := by
  have e : idx_main_v90 (idx_main_v91 (ix2 r j)) = ix1 j := funext fun a => match a with | ⟨0, _⟩ => rfl
  rw [val_main_v91_apply, val_main_v90_apply, e]
  unfold val_main_v89 val_main_v88
  exact Cert.Spec.bvec_apply 2 (by decide) x6 _ _ j

theorem z_call2 (i : S50000x128.Idx) : val_main_call2_v0 (F := Ideal) i = 0 := by
  rw [val_main_call2_v0_apply, val_main_call2_cst_apply, Ideal.ofBits_def, Ideal.ofBits_zero_f32]

theorem w1_3 (x3 : (⟨S4x128x128, .f32⟩ : BufTy).Contents (Elt Ideal)) (l k : Fin 128) :
    val_main_v106 (F := Ideal) x3 (ix2 l k) = x3 (ix3 3 l k) := by
  unfold val_main_v106 val_main_v105
  exact Cert.Spec.wslab_apply 3 (by decide) x3 _ _ l k

theorem b1_3 (x4 : (⟨S4x128, .f32⟩ : BufTy).Contents (Elt Ideal)) (r : Fin 50000) (k : Fin 128) :
    val_main_v111 (F := Ideal) x4 (ix2 r k) = x4 (ix2 3 k) := by
  have e : idx_main_v110 (idx_main_v111 (ix2 r k)) = ix1 k := funext fun a => match a with | ⟨0, _⟩ => rfl
  rw [val_main_v111_apply, val_main_v110_apply, e]
  unfold val_main_v109 val_main_v108
  exact Cert.Spec.bvec_apply 3 (by decide) x4 _ _ k

theorem z_113 (i : S50000x128.Idx) : val_main_v113 (F := Ideal) i = 0 := by
  rw [val_main_v113_apply, val_main_cst_13_apply, Ideal.ofBits_def, Ideal.ofBits_zero_f32]

theorem w2_3 (x5 : (⟨S4x128x128, .f32⟩ : BufTy).Contents (Elt Ideal)) (k j : Fin 128) :
    val_main_v116 (F := Ideal) x5 (ix2 k j) = x5 (ix3 3 k j) := by
  unfold val_main_v116 val_main_v115
  exact Cert.Spec.wslab_apply 3 (by decide) x5 _ _ k j

theorem b2_3 (x6 : (⟨S4x128, .f32⟩ : BufTy).Contents (Elt Ideal)) (r : Fin 50000) (j : Fin 128) :
    val_main_v121 (F := Ideal) x6 (ix2 r j) = x6 (ix2 3 j) := by
  have e : idx_main_v120 (idx_main_v121 (ix2 r j)) = ix1 j := funext fun a => match a with | ⟨0, _⟩ => rfl
  rw [val_main_v121_apply, val_main_v120_apply, e]
  unfold val_main_v119 val_main_v118
  exact Cert.Spec.bvec_apply 3 (by decide) x6 _ _ j

/-! ## One layer's dense part over arbitrary arrays -/

/-- The dense part of a layer at (r, j), from arrays that read as the layer's weights and biases: the row of the
    specification. -/
theorem dense_row (h g : FVec Ideal S50000x128 .f32) (w1 w2 : FVec Ideal S128x128 .f32) (b1 z b2 : FVec Ideal S50000x128 .f32)
    (W1 W2 : Fin 128 → Fin 128 → EReal) (B1 B2 : Fin 128 → EReal)
    (hw1 : ∀ l k, w1 (ix2 l k) = W1 l k) (hb1 : ∀ r k, b1 (ix2 r k) = B1 k) (hz : ∀ i, z i = 0)
    (hw2 : ∀ k j, w2 (ix2 k j) = W2 k j) (hb2 : ∀ r j, b2 (ix2 r j) = B2 j) (r : Fin 50000) (j : Fin 128) :
    addf (Host.dotGeneral dot_S50000x128_S128x128_S50000x128_1_0_0_1_n_n none
        (maximumf (addf (Host.dotGeneral dot_S50000x128_S128x128_S50000x128_1_0_0_1_n_n none (addf h g) w1) b1) z) w2) b2 (ix2 r j)
      = Cert.Spec.rowAt (fun l => h (ix2 r l)) (fun l => g (ix2 r l)) W1 B1 W2 B2 j := by
  rw [addf_apply, dot_apply, hb2]
  unfold Cert.Spec.rowAt
  refine congrArg (· + B2 j) (Finset.sum_congr rfl fun k _ => ?_)
  rw [maximumf_apply, addf_apply, dot_apply, hz, hb1, hw2]
  unfold Cert.Spec.hiddenAt
  refine congrArg (fun s => max (s + B1 k) 0 * W2 k j) (Finset.sum_congr rfl fun l _ => ?_)
  rw [addf_apply, hw1]

/-! ## The four layers -/

/-- The first layer's result is the specification's layer of the node features and their neighbour sums. -/
theorem layer1 (x0 : (⟨S50000x128, .f32⟩ : BufTy).Contents (Elt Ideal)) (x1 : (⟨S2x640000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) :
    val_main_v33 (F := Ideal) x0 x1 x3 x4 x5 x6
      = Cert.Spec.layer true x0 (val_main_v13 (F := Ideal) x0 x1) (fun l k => x3 (ix3 0 l k)) (fun k => x4 (ix2 0 k))
          (fun k j => x5 (ix3 0 k j)) (fun j => x6 (ix2 0 j)) := by
  funext i
  obtain ⟨r, j, rfl⟩ : ∃ r j, i = ix2 r j := ⟨i 0, i 1, eq_ix2 i⟩
  rw [val_main_v33_apply, z_call0, Ideal.maximumf_def]
  unfold val_main_v32 val_main_v27 val_main_v24 val_main_v22 val_main_v17 val_main_v14
  rw [dense_row x0 (val_main_v13 (F := Ideal) x0 x1) (val_main_v16 (F := Ideal) x3) (val_main_v26 (F := Ideal) x5)
    (val_main_v21 (F := Ideal) x4) (val_main_v23 (F := Ideal)) (val_main_v31 (F := Ideal) x6) _ _ _ _
    (w1_0 x3) (b1_0 x4) z_23 (w2_0 x5) (b2_0 x6) r j]
  rfl

/-- The second layer's result is the specification's layer of the layer before and its neighbour sums. -/
theorem layer2 (x0 : (⟨S50000x128, .f32⟩ : BufTy).Contents (Elt Ideal)) (x1 : (⟨S2x640000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) :
    val_main_v63 (F := Ideal) x0 x1 x3 x4 x5 x6
      = Cert.Spec.layer true (val_main_v33 (F := Ideal) x0 x1 x3 x4 x5 x6) (val_main_v43 (F := Ideal) x0 x1 x3 x4 x5 x6) (fun l k => x3 (ix3 1 l k)) (fun k => x4 (ix2 1 k))
          (fun k j => x5 (ix3 1 k j)) (fun j => x6 (ix2 1 j)) := by
  funext i
  obtain ⟨r, j, rfl⟩ : ∃ r j, i = ix2 r j := ⟨i 0, i 1, eq_ix2 i⟩
  rw [val_main_v63_apply, z_call1, Ideal.maximumf_def]
  unfold val_main_v62 val_main_v57 val_main_v54 val_main_v52 val_main_v47 val_main_v44
  rw [dense_row (val_main_v33 (F := Ideal) x0 x1 x3 x4 x5 x6) (val_main_v43 (F := Ideal) x0 x1 x3 x4 x5 x6) (val_main_v46 (F := Ideal) x3) (val_main_v56 (F := Ideal) x5)
    (val_main_v51 (F := Ideal) x4) (val_main_v53 (F := Ideal)) (val_main_v61 (F := Ideal) x6) _ _ _ _
    (w1_1 x3) (b1_1 x4) z_53 (w2_1 x5) (b2_1 x6) r j]
  rfl

/-- The third layer's result is the specification's layer of the layer before and its neighbour sums. -/
theorem layer3 (x0 : (⟨S50000x128, .f32⟩ : BufTy).Contents (Elt Ideal)) (x1 : (⟨S2x640000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) :
    val_main_v93 (F := Ideal) x0 x1 x3 x4 x5 x6
      = Cert.Spec.layer true (val_main_v63 (F := Ideal) x0 x1 x3 x4 x5 x6) (val_main_v73 (F := Ideal) x0 x1 x3 x4 x5 x6) (fun l k => x3 (ix3 2 l k)) (fun k => x4 (ix2 2 k))
          (fun k j => x5 (ix3 2 k j)) (fun j => x6 (ix2 2 j)) := by
  funext i
  obtain ⟨r, j, rfl⟩ : ∃ r j, i = ix2 r j := ⟨i 0, i 1, eq_ix2 i⟩
  rw [val_main_v93_apply, z_call2, Ideal.maximumf_def]
  unfold val_main_v92 val_main_v87 val_main_v84 val_main_v82 val_main_v77 val_main_v74
  rw [dense_row (val_main_v63 (F := Ideal) x0 x1 x3 x4 x5 x6) (val_main_v73 (F := Ideal) x0 x1 x3 x4 x5 x6) (val_main_v76 (F := Ideal) x3) (val_main_v86 (F := Ideal) x5)
    (val_main_v81 (F := Ideal) x4) (val_main_v83 (F := Ideal)) (val_main_v91 (F := Ideal) x6) _ _ _ _
    (w1_2 x3) (b1_2 x4) z_83 (w2_2 x5) (b2_2 x6) r j]
  rfl

/-- The fourth layer's result is the specification's layer of the layer before and its neighbour sums (no closing maximum). -/
theorem layer4 (x0 : (⟨S50000x128, .f32⟩ : BufTy).Contents (Elt Ideal)) (x1 : (⟨S2x640000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) :
    val_main_v122 (F := Ideal) x0 x1 x3 x4 x5 x6
      = Cert.Spec.layer false (val_main_v93 (F := Ideal) x0 x1 x3 x4 x5 x6) (val_main_v103 (F := Ideal) x0 x1 x3 x4 x5 x6) (fun l k => x3 (ix3 3 l k)) (fun k => x4 (ix2 3 k))
          (fun k j => x5 (ix3 3 k j)) (fun j => x6 (ix2 3 j)) := by
  funext i
  obtain ⟨r, j, rfl⟩ : ∃ r j, i = ix2 r j := ⟨i 0, i 1, eq_ix2 i⟩
  unfold val_main_v122 val_main_v117 val_main_v114 val_main_v112 val_main_v107 val_main_v104
  rw [dense_row (val_main_v93 (F := Ideal) x0 x1 x3 x4 x5 x6) (val_main_v103 (F := Ideal) x0 x1 x3 x4 x5 x6) (val_main_v106 (F := Ideal) x3) (val_main_v116 (F := Ideal) x5)
    (val_main_v111 (F := Ideal) x4) (val_main_v113 (F := Ideal)) (val_main_v121 (F := Ideal) x6) _ _ _ _
    (w1_3 x3) (b1_3 x4) z_113 (w2_3 x5) (b2_3 x6) r j]
  rfl

/-! ## The head -/

/-- The pooled features: each graph's feature sums over its node count raised to at least one. -/
theorem pooled_eq (x0 : (⟨S50000x128, .f32⟩ : BufTy).Contents (Elt Ideal)) (x1 : (⟨S2x640000, .i32⟩ : BufTy).Contents (Elt Ideal)) (x2 : (⟨S50000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) :
    val_main_v134 (F := Ideal) x0 x1 x2 x3 x4 x5 x6
      = Cert.Spec.pooled (val_main_v125 (F := Ideal) x0 x1 x2 x3 x4 x5 x6) (fun g => val_main_v129 (F := Ideal) x2 (ix1 g)) := by
  funext i
  obtain ⟨g, j, rfl⟩ : ∃ g j, i = ix2 g j := ⟨i 0, i 1, eq_ix2 i⟩
  have e : idx_main_v132 (idx_main_v133 (ix2 g j)) = ix1 g := funext fun a => match a with | ⟨0, _⟩ => rfl
  rw [val_main_v134_apply, Ideal.hostDivf_def, val_main_v133_apply, val_main_v132_apply, e, val_main_v131_apply,
    Ideal.maximumf_def, val_main_v130_apply, val_main_cst_17_apply, Ideal.ofBits_def]
  rfl

/-- The class scores: the pooled features through the last affine map. -/
theorem logits_eq (x0 : (⟨S50000x128, .f32⟩ : BufTy).Contents (Elt Ideal)) (x1 : (⟨S2x640000, .i32⟩ : BufTy).Contents (Elt Ideal)) (x2 : (⟨S50000, .i32⟩ : BufTy).Contents (Elt Ideal)) (x3 : (⟨S4x128x128, .f32⟩ : BufTy).Contents (Elt Ideal)) (x4 : (⟨S4x128, .f32⟩ : BufTy).Contents (Elt Ideal)) (x5 : (⟨S4x128x128, .f32⟩ : BufTy).Contents (Elt Ideal)) (x6 : (⟨S4x128, .f32⟩ : BufTy).Contents (Elt Ideal)) (x7 : (⟨S128x32, .f32⟩ : BufTy).Contents (Elt Ideal)) (x8 : (⟨S32, .f32⟩ : BufTy).Contents (Elt Ideal)) :
    val_main_v138 (F := Ideal) x0 x1 x2 x3 x4 x5 x6 x7 x8
      = Cert.Spec.logits (val_main_v134 (F := Ideal) x0 x1 x2 x3 x4 x5 x6) (fun k j => x7 (ix2 k j)) (fun j => x8 (ix1 j)) := by
  funext i
  obtain ⟨g, j, rfl⟩ : ∃ g j, i = ix2 g j := ⟨i 0, i 1, eq_ix2 i⟩
  have e : idx_main_v136 (idx_main_v137 (ix2 g j)) = ix1 j := funext fun a => match a with | ⟨0, _⟩ => rfl
  rw [val_main_v138_apply, Ideal.addf_def, val_main_v135_apply, val_main_v137_apply, val_main_v136_apply, e]
  unfold Cert.Spec.logits
  refine congrArg (· + x8 (ix1 j)) (Finset.sum_congr rfl fun k _ => ?_)
  have el : lidx_main_v135 (ix2 g j) k = ix2 g k := funext fun a => match a with | ⟨0, _⟩ => rfl | ⟨1, _⟩ => rfl
  have er : ridx_main_v135 (ix2 g j) k = ix2 k j := funext fun a => match a with | ⟨0, _⟩ => rfl | ⟨1, _⟩ => rfl
  rw [el, er]

end Cert.ReferenceIdeal.Hand

end
-- ==== Proof.RNet.lean ====
import proofs.«425847_j77086073028963_1_alg».proof.Proof.Gen.ReferenceIdeal.Read
import proofs.«425847_j77086073028963_1_alg».proof.Proof.Spec
import proofs.«425847_j77086073028963_1_alg».proof.Proof.RLayers

/-!
# The reference program's two results are the network specification

The printed reference computes, layer by layer: the neighbour sums of the current features (a gather of the source
rows scatter-added into the destination rows), the layer's dense part, and at the end the per-graph sums and node
counts, the pooled features and the class scores. Each layer's dense part, the pooling and the last affine map are
read entry by entry elsewhere; here the reference's scatter-adds are named once (every layer recomputes the same index
column, zero array and destination column under fresh names) and the stages are chained into the specification.
-/

noncomputable section

namespace Cert.ReferenceIdeal.Hand

open Cert.ReferenceIdeal Cert.ReferenceIdeal.Facts₀ Cert.ReferenceIdeal.Read Cert.ReferenceIdeal.Value Idealize.ShloMosaic Idealize.ShloMosaic.ValueIdx

/-- The edges' source indices: row 0 of the edge list. -/
def srcR (ei : IVec S2x640000 32) : IVec S640000 32 :=
  shapeCast S640000 (extractStridedSlice S1x640000 ![0, 0] ei slices_S2x640000_S1x640000_0_0) shapeCasts_S1x640000_S640000

/-- The edges' destination indices: row 1 of the edge list. -/
def dstR (ei : IVec S2x640000 32) : IVec S640000 32 :=
  shapeCast S640000 (extractStridedSlice S1x640000 ![1, 0] ei slices_S2x640000_S1x640000_1_0) shapeCasts_S1x640000_S640000

/-- The source indices with negative words moved up by the node count, as a column. -/
def idxR (ei : IVec S2x640000 32) : IVec S640000x1 32 :=
  broadcastInDim S640000x1 ![0] bcast_S640000_S640000x1_0
    (select (cmpi .slt (srcR ei) (broadcastInDim S640000 ![] bcast_S_S640000 (constantI S_ 32 0#32)))
      (addi (srcR ei) (broadcastInDim S640000 ![] bcast_S_S640000 (constantI S_ 32 50000#32))) (srcR ei))

/-- The neighbour sums: every edge's gathered source row added into its destination node's row, from zeros. -/
def aggR (h : FVec Ideal S50000x128 .f32) (ei : IVec S2x640000 32) : FVec Ideal S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 (dstR ei))
    (Host.gather gather_S50000x128_S640000x1_S640000x128_1_0_n_n_0_1_1128 h (idxR ei))

/-- The per-graph sums of a feature array: every node's row added into its graph's row, from zeros. -/
def sumsR (h : FVec Ideal S50000x128 .f32) (batch : IVec S50000 32) : FVec Ideal S64x128 .f32 :=
  Host.scatterAdd scatter_S64x128_S50000x1_S50000x128_1_0_0_1
    (broadcastInDim S64x128 ![] bcast_S_S64x128 (constant S_ .f32 0x00000000#32))
    (broadcastInDim S50000x1 ![0] bcast_S50000_S50000x1_0 batch) h

/-- The per-graph node counts: a one per node added into its graph's entry, from zeros. -/
def cntVecR (batch : IVec S50000 32) : FVec Ideal S64 .f32 :=
  Host.scatterAdd scatter_S64_S50000x1_S50000_n_0_0_1
    (broadcastInDim S64 ![] bcast_S_S64 (constant S_ .f32 0x00000000#32))
    (broadcastInDim S50000x1 ![0] bcast_S50000_S50000x1_0 batch)
    (broadcastInDim S50000 ![] bcast_S_S50000 (constant S_ .f32 0x3F800000#32))

section Stages

variable (x0 : FVec Ideal S50000x128 .f32) (x1 : IVec S2x640000 32) (x2 : IVec S50000 32) (x3 : FVec Ideal S4x128x128 .f32)
  (x4 : FVec Ideal S4x128 .f32) (x5 : FVec Ideal S4x128x128 .f32) (x6 : FVec Ideal S4x128 .f32)

/-! Each layer of the printed reference recomputes the index column, the zero array and the destination column under
fresh names; all four are the same terms. -/

theorem src1 : val_main_v1 (F := Ideal) x1 = srcR x1 := by
  unfold val_main_v1 val_main_v0 srcR; rfl

theorem dst1 : val_main_v3 (F := Ideal) x1 = dstR x1 := by
  unfold val_main_v3 val_main_v2 dstR; rfl

theorem idx1 : val_main_v9 (F := Ideal) x1 = idxR x1 := by
  unfold val_main_v9 val_main_v8 val_main_v5 val_main_v7 val_main_v4 val_main_v6 val_main_c val_main_c_0 idxR
  rw [src1]
theorem idx2 : val_main_v39 (F := Ideal) x1 = idxR x1 := by
  unfold val_main_v39 val_main_v38 val_main_v35 val_main_v37 val_main_v34 val_main_v36 val_main_c_2 val_main_c_3 idxR
  rw [src1]
theorem idx3 : val_main_v69 (F := Ideal) x1 = idxR x1 := by
  unfold val_main_v69 val_main_v68 val_main_v65 val_main_v67 val_main_v64 val_main_v66 val_main_c_6 val_main_c_7 idxR
  rw [src1]
theorem idx4 : val_main_v99 (F := Ideal) x1 = idxR x1 := by
  unfold val_main_v99 val_main_v98 val_main_v95 val_main_v97 val_main_v94 val_main_v96 val_main_c_10 val_main_c_11 idxR
  rw [src1]

theorem agg1 : val_main_v13 (F := Ideal) x0 x1 = aggR x0 x1 := by
  unfold val_main_v13 val_main_v10 val_main_v11 val_main_cst val_main_v12 aggR
  rw [idx1, dst1]
theorem agg2 : val_main_v43 (F := Ideal) x0 x1 x3 x4 x5 x6 = aggR (val_main_v33 (F := Ideal) x0 x1 x3 x4 x5 x6) x1 := by
  unfold val_main_v43 val_main_v40 val_main_v41 val_main_cst_4 val_main_v42 aggR
  rw [idx2, dst1]
theorem agg3 : val_main_v73 (F := Ideal) x0 x1 x3 x4 x5 x6 = aggR (val_main_v63 (F := Ideal) x0 x1 x3 x4 x5 x6) x1 := by
  unfold val_main_v73 val_main_v70 val_main_v71 val_main_cst_8 val_main_v72 aggR
  rw [idx3, dst1]
theorem agg4 : val_main_v103 (F := Ideal) x0 x1 x3 x4 x5 x6 = aggR (val_main_v93 (F := Ideal) x0 x1 x3 x4 x5 x6) x1 := by
  unfold val_main_v103 val_main_v100 val_main_v101 val_main_cst_12 val_main_v102 aggR
  rw [idx4, dst1]

theorem sums_eq : val_main_v125 (F := Ideal) x0 x1 x2 x3 x4 x5 x6 = sumsR (val_main_v122 (F := Ideal) x0 x1 x3 x4 x5 x6) x2 := by
  unfold val_main_v125 val_main_v123 val_main_cst_14 val_main_v124 sumsR; rfl
theorem cnt_eq : val_main_v129 (F := Ideal) x2 = cntVecR x2 := by
  unfold val_main_v129 val_main_v127 val_main_cst_16 val_main_v128 val_main_v126 val_main_cst_15 cntVecR; rfl

end Stages

section Net

open Idealize.ShloMosaic.TcCoe Idealize.SL.Sem

variable (m : (ℓ : Loc nD τ sig) → Buf (Elt Ideal) ℓ) (c : Dev nD)

/-- The reference's first result is the network's pooled features, over the reference's own scatter-adds: the stages
    are rewritten from the result back to the inputs, layer by layer. -/
theorem ref_pooled :
    res_main_v134 (F := Ideal) m c
      = (Cert.Spec.net (fun h => aggR h (m ((c.tc : Thread nD τ).loc main_arg1))) (fun h => sumsR h (m ((c.tc : Thread nD τ).loc main_arg2)))
          (fun g => cntVecR (m ((c.tc : Thread nD τ).loc main_arg2)) (ix1 g)) (m ((c.tc : Thread nD τ).loc main_arg0))
          (fun o l k => (m ((c.tc : Thread nD τ).loc main_arg3)) (ix3 o l k)) (fun o k => (m ((c.tc : Thread nD τ).loc main_arg4)) (ix2 o k))
          (fun o l k => (m ((c.tc : Thread nD τ).loc main_arg5)) (ix3 o l k)) (fun o k => (m ((c.tc : Thread nD τ).loc main_arg6)) (ix2 o k))
          (fun k j => (m ((c.tc : Thread nD τ).loc main_arg7)) (ix2 k j)) (fun j => (m ((c.tc : Thread nD τ).loc main_arg8)) (ix1 j))).1 := by
  rw [val_main_v134_eq, pooled_eq, sums_eq, cnt_eq, layer4, agg4, layer3, agg3, layer2, agg2, layer1, agg1]
  dsimp only [Cert.Spec.net]

/-- The reference's second result is the network's class scores: the last affine map of the pooled features. -/
theorem ref_logits :
    res_main_v138 (F := Ideal) m c
      = (Cert.Spec.net (fun h => aggR h (m ((c.tc : Thread nD τ).loc main_arg1))) (fun h => sumsR h (m ((c.tc : Thread nD τ).loc main_arg2)))
          (fun g => cntVecR (m ((c.tc : Thread nD τ).loc main_arg2)) (ix1 g)) (m ((c.tc : Thread nD τ).loc main_arg0))
          (fun o l k => (m ((c.tc : Thread nD τ).loc main_arg3)) (ix3 o l k)) (fun o k => (m ((c.tc : Thread nD τ).loc main_arg4)) (ix2 o k))
          (fun o l k => (m ((c.tc : Thread nD τ).loc main_arg5)) (ix3 o l k)) (fun o k => (m ((c.tc : Thread nD τ).loc main_arg6)) (ix2 o k))
          (fun k j => (m ((c.tc : Thread nD τ).loc main_arg7)) (ix2 k j)) (fun j => (m ((c.tc : Thread nD τ).loc main_arg8)) (ix1 j))).2 := by
  rw [val_main_v138_eq, logits_eq, ← val_main_v134_eq m c, ref_pooled]
  dsimp only [Cert.Spec.net]

/-- Both results of the reference program are the network specification over the reference's scatter-adds. -/
theorem ref_net :
    let N := Cert.Spec.net (fun h => aggR h (m ((c.tc : Thread nD τ).loc main_arg1))) (fun h => sumsR h (m ((c.tc : Thread nD τ).loc main_arg2)))
      (fun g => cntVecR (m ((c.tc : Thread nD τ).loc main_arg2)) (ix1 g)) (m ((c.tc : Thread nD τ).loc main_arg0))
      (fun o l k => (m ((c.tc : Thread nD τ).loc main_arg3)) (ix3 o l k)) (fun o k => (m ((c.tc : Thread nD τ).loc main_arg4)) (ix2 o k))
      (fun o l k => (m ((c.tc : Thread nD τ).loc main_arg5)) (ix3 o l k)) (fun o k => (m ((c.tc : Thread nD τ).loc main_arg6)) (ix2 o k))
      (fun k j => (m ((c.tc : Thread nD τ).loc main_arg7)) (ix2 k j)) (fun j => (m ((c.tc : Thread nD τ).loc main_arg8)) (ix1 j))
    res_main_v134 (F := Ideal) m c = N.1 ∧ res_main_v138 (F := Ideal) m c = N.2 :=
  ⟨ref_pooled m c, ref_logits m c⟩

end Net

end Cert.ReferenceIdeal.Hand

end
-- ==== Proof.TakeAll.lean ====
import Idealize.ShloMosaic.PureOps.Ideal
import Idealize.ShloMosaic.PureOps.Reduce
import Idealize.ShloMosaic.Lib.ValueIdx
import Idealize.ShloMosaic.Lib.Pipeline.Value
import Idealize.ShloMosaic.Lib.StableHlo.Predicate
import Idealize.ShloMosaic.Lib.ReduceAll

/-!
# A fill-mode row gather over in-range indices is the plain gather

A gather of rows in "fill" mode moves each negative index word up by the table length, tests the moved word against
the table's range, and puts a fill value where the test fails. When every index word already lies in the range
`0 ≤ w < 50000` (as signed 32-bit words), no word is moved, every test passes, the mask is all ones and the select is
its first branch: the plain gather.
-/

noncomputable section

namespace Cert.Spec

open Idealize.ShloMosaic Idealize.ShloMosaic.ValueIdx

abbrev SE : Shape := ⟨1, ![640000]⟩
abbrev SE1 : Shape := ⟨2, ![640000, 1]⟩
abbrev SEF : Shape := ⟨2, ![640000, 128]⟩
abbrev Sc0 : Shape := ⟨0, ![]⟩
abbrev Sc1 : Shape := ⟨1, ![1]⟩
abbrev Sc11 : Shape := ⟨2, ![1, 1]⟩

/-- A source index word lies in the node range: 0 ≤ w and w < 50000, as signed 32-bit comparisons. -/
def InRange (w : BitVec 32) : Prop := IntOp.cmpi .sge w 0#32 = 1#1 ∧ IntOp.cmpi .slt w 50000#32 = 1#1

/-- The index column the gathers read: negative words moved up by 50000, laid out as a column. -/
def idxCol (src : IVec SE 32) (h0 : Sc0.BroadcastsInDim SE (![] : Fin 0 → Fin SE.rank))
    (h1 : SE.BroadcastsInDim SE1 (![0] : Fin 1 → Fin SE1.rank)) : IVec SE1 32 :=
  broadcastInDim SE1 ![0] h1 (select (cmpi .slt src (broadcastInDim SE ![] h0 (constantI Sc0 32 0#32)))
    (addi src (broadcastInDim SE ![] h0 (constantI Sc0 32 50000#32))) src)

/-- A word in the range has a value below 50000 (so its sign bit is clear). -/
theorem InRange.toNat_lt {w : BitVec 32} (hw : InRange w) : w.toNat < 50000 := by
  obtain ⟨h0, h1⟩ := hw
  simp only [IntOp.cmpi, StableHlo.Predicate.ofBool_eq_one_iff, BitVec.sle, BitVec.slt, decide_eq_true_eq] at h0 h1
  have z : (0#32 : BitVec 32).toInt = 0 := by decide
  have f : (50000#32 : BitVec 32).toInt = 50000 := by decide
  rw [z] at h0; rw [f] at h1
  rw [BitVec.toInt_eq_toNat_cond] at h0 h1
  split at h0 <;> omega

/-- On a word in the range the fill-mode test passes: the word is not negative, so it is kept as it is, and it
    is at least 0 and at most 49999. -/
theorem test_word {w : BitVec 32} (hw : InRange w) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have hlt := hw.toNat_lt
  have h31 : w.toNat < 2 ^ 31 := by omega
  have z31 : (0#32 : BitVec 32).toNat < 2 ^ 31 := by decide
  have n31 : (49999#32 : BitVec 32).toNat < 2 ^ 31 := by decide
  have hneg : ¬ IntOp.cmpi .slt w 0#32 = 1#1 := by
    rw [StableHlo.Predicate.slt_iff_toNat h31 z31]; exact Nat.not_lt_zero _
  have hsel : Scalar.select (IntOp.cmpi .slt w 0#32) (IntOp.addi w 50000#32) w = w := by
    rw [eq_zero_of_ne_one hneg, select_zero]
  rw [hsel, IntOp.andi_eq_one, StableHlo.Predicate.sge_iff_toNat h31 z31, StableHlo.Predicate.sle_iff_toNat h31 n31]
  have n : (49999#32 : BitVec 32).toNat = 49999 := by decide
  have z : (0#32 : BitVec 32).toNat = 0 := by decide
  rw [n, z]
  omega

/-- A left fold by `and` from 1 over a list whose every entry is 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi 1#1 (f a) = 1#1 := by rw [hf a]; decide
    rw [List.foldl_cons, h11]
    exact foldl_andi_one f hf l

/-- The fill-mode mask over in-range indices is all ones. -/
theorem mask_all_one (src : IVec SE 32) (hsrc : ∀ e, InRange (src e))
    (h0 : Sc0.BroadcastsInDim SE (![] : Fin 0 → Fin SE.rank)) (h1 : SE.BroadcastsInDim SE1 (![0] : Fin 1 → Fin SE1.rank))
    (h2 : Sc0.BroadcastsInDim SE1 (![] : Fin 0 → Fin SE1.rank)) (h3 : Sc11.BroadcastsInDim SE1 (![0, 1] : Fin 2 → Fin SE1.rank))
    (h4 : Sc1.BroadcastsInDim Sc11 (![1] : Fin 1 → Fin Sc11.rank)) (hr : SE1.ReducesTo [1] SE) (hu : 0 < Sc0.numel) :
    Host.reduce IntOp.andi
      (andi (cmpi .sge (idxCol src h0 h1) (broadcastInDim SE1 ![] h2 (constantI Sc0 32 0#32)))
            (cmpi .sle (idxCol src h0 h1) (broadcastInDim SE1 ![0, 1] h3 (broadcastInDim Sc11 ![1] h4 (constantI Sc1 32 49999#32)))))
      (constantI Sc0 1 1#1) hr hu = fun _ => 1#1 := by
  funext j
  -- every entry of the reduced array is the word test of one source word
  have hx : ∀ i : SE1.Idx,
      (andi (cmpi .sge (idxCol src h0 h1) (broadcastInDim SE1 ![] h2 (constantI Sc0 32 0#32)))
            (cmpi .sle (idxCol src h0 h1) (broadcastInDim SE1 ![0, 1] h3 (broadcastInDim Sc11 ![1] h4 (constantI Sc1 32 49999#32))))) i
        = 1#1 := fun i => test_word (hsrc _)
  rw [Host.reduce_eq_foldl]
  exact foldl_andi_one _ hx _

/-- A select on an all-ones mask laid along the columns is its first branch. -/
theorem select_all_one {α : Type} (mask : IVec SE 1) (hm : mask = fun _ => 1#1)
    (hb : SE.BroadcastsInDim SEF (![0] : Fin 1 → Fin SEF.rank)) (g nan : SEF.Idx → α) :
    select (broadcastInDim SEF ![0] hb mask) g nan = g := by
  subst hm
  funext j
  exact select_one (g j) (nan j)

end Cert.Spec

end
-- ==== Proof.PreRange.lean ====
import proofs.«425847_j77086073028963_1_alg».proof.Pre_finite_inputs
import proofs.«425847_j77086073028963_1_alg».proof.Proof.Gen.Pre_finite_inputs
import proofs.«425847_j77086073028963_1_alg».proof.Proof.TakeAll
import Idealize.ShloMosaic.Lib.ValueIdx
import Idealize.ShloMosaic.Lib.ReduceAll

/-!
# The precondition says every source index word is in range

The printed precondition is a conjunction of one-bit words; its last conjunct is the reduction by `and`, over all
640000 entries, of the test `0 ≤ s ∧ s < 50000` (signed) on the source row `s` of the edge table. A conjunction that is 1
has every conjunct 1, and a reduction by `and` that is 1 met only 1s: so the test holds at every entry.
-/

noncomputable section

namespace Cert.Pre_finite_inputs.Hand

open Cert.Pre_finite_inputs Idealize.ShloMosaic Idealize.ShloMosaic.ValueIdx

/-- The scalar shape has one index. -/
instance : Subsingleton S_.Idx := ⟨fun _ _ => funext fun d => d.elim0⟩

/-- Under the precondition every word of the source row lies in the node range. -/
theorem src_in_range (a0 : FVec Ideal S50000x128 .f32) (a1 : IVec S2x640000 32) (a2 : IVec S50000 32)
    (a3 : FVec Ideal S4x128x128 .f32) (a4 : FVec Ideal S4x128 .f32) (a5 : FVec Ideal S4x128x128 .f32)
    (a6 : FVec Ideal S4x128 .f32) (a7 : FVec Ideal S128x32 .f32) (a8 : FVec Ideal S32 .f32)
    (hpre : Cert.Pre_finite_inputs.fn (F := Ideal) a0 a1 a2 a3 a4 a5 a6 a7 a8 = fun _ => 1#1) (e : S640000.Idx) :
    Cert.Spec.InRange (shapeCast S640000 (extractStridedSlice S1x640000 ![0, 0] a1 Facts.slices_S2x640000_S1x640000_0_0)
      Facts.shapeCasts_S1x640000_S640000 e) := by
  -- the precondition's value is a conjunction whose last conjunct is the reduction by `and` of the range test
  have h := congrFun hpre ix0
  obtain ⟨-, hall⟩ := IntOp.andi_eq_one.1 (h : IntOp.andi _ _ = 1#1)
  -- a reduction by `and` over all entries that is 1 has a 1 at every entry
  have he := Host.reduce_andi_all _ _ _ _ ix0 hall e
  -- the entry is the conjunction of the two comparisons of the word with the constants 0 and 50000
  obtain ⟨hge, hlt⟩ := IntOp.andi_eq_one.1 (he : IntOp.andi _ _ = 1#1)
  exact ⟨hge, hlt⟩

end Cert.Pre_finite_inputs.Hand

end
-- ==== Proof.lean ====
/-
  The certificate's claims for the graph network: four layers `h ↦ act (max ((h + g)·W1 + b1) 0 · W2 + b2)` with `g` the
  sum of each node's in-neighbours' rows of `h`, then the per-graph mean and one more affine map.

  The kernel program computes each layer's dense part in a kernel region over blocks of 5000 node rows and the head
  in a fifth region; the neighbour sums, the per-graph sums and the node counts are scatter-adds on the host in both
  programs. Over the extended reals both programs end at `Cert.Spec.net` of the arguments. The one difference is
  the gather that feeds the neighbour sums: the kernel program fills rows whose source index is out of range, the
  reference reads a clamped row; the precondition keeps every source index inside the node range, where the two
  gathers are the same array (`agg_eq`). No law of the extended reals beyond that is needed: the two sides are the
  same sums in the same order, so finiteness of the inputs is never used.
-/
import proofs.«425847_j77086073028963_1_alg».proof.Defs
import proofs.«425847_j77086073028963_1_alg».proof.Proof.Gen.Kernel
import proofs.«425847_j77086073028963_1_alg».proof.Proof.Gen.Kernel.Skeleton
import proofs.«425847_j77086073028963_1_alg».proof.Proof.Gen.Kernel.Launch
import proofs.«425847_j77086073028963_1_alg».proof.Proof.Gen.Kernel.Points
import proofs.«425847_j77086073028963_1_alg».proof.Proof.Gen.Kernel.Frame
import proofs.«425847_j77086073028963_1_alg».proof.Proof.Gen.KernelIdeal
import proofs.«425847_j77086073028963_1_alg».proof.Proof.Gen.KernelIdeal.Skeleton
import proofs.«425847_j77086073028963_1_alg».proof.Proof.Gen.KernelIdeal.Launch
import proofs.«425847_j77086073028963_1_alg».proof.Proof.Gen.KernelIdeal.Points
import proofs.«425847_j77086073028963_1_alg».proof.Proof.Gen.KernelIdeal.Frame
import proofs.«425847_j77086073028963_1_alg».proof.Proof.Gen.ReferenceIdeal
import proofs.«425847_j77086073028963_1_alg».proof.Proof.Gen.ReferenceIdeal.Run
import proofs.«425847_j77086073028963_1_alg».proof.Proof.Gen.Pre_finite_inputs
import proofs.«425847_j77086073028963_1_alg».proof.Proof.KRun
import proofs.«425847_j77086073028963_1_alg».proof.Proof.KDefs
import proofs.«425847_j77086073028963_1_alg».proof.Proof.KNet
import proofs.«425847_j77086073028963_1_alg».proof.Proof.RNet
import proofs.«425847_j77086073028963_1_alg».proof.Proof.PreRange
import proofs.«425847_j77086073028963_1_alg».proof.Proof.TakeAll
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The two programs' scatter-adds agree -/

/-- With every source index in the node range no gathered row is filled, so the kernel program's neighbour sums
    are the reference's: the same scatter-add of the same gathered rows. -/
theorem agg_eq (h : FVec Ideal Cert.KernelIdeal.S50000x128 .f32) (ei : IVec Cert.KernelIdeal.S2x640000 32)
    (hsrc : ∀ e, Cert.Spec.InRange (Cert.KernelIdeal.Hand.srcK ei e)) :
    Cert.KernelIdeal.Hand.aggK h ei = Cert.ReferenceIdeal.Hand.aggR h ei := by
  have hm : Cert.KernelIdeal.Hand.maskK ei = fun _ => 1#1 :=
    Cert.Spec.mask_all_one (Cert.KernelIdeal.Hand.srcK ei) hsrc Cert.KernelIdeal.Facts₀.bcast_S_S640000
      Cert.KernelIdeal.Facts₀.bcast_S640000_S640000x1_0 Cert.KernelIdeal.Facts₀.bcast_S_S640000x1
      Cert.KernelIdeal.Facts₀.bcast_S1x1_S640000x1_0_1 Cert.KernelIdeal.Facts₀.bcast_S1_S1x1_1
      Cert.KernelIdeal.Facts₀.reducesTo_S640000x1_S640000_d1 Cert.KernelIdeal.Facts₀.h_S_
  unfold Cert.KernelIdeal.Hand.aggK Cert.KernelIdeal.Hand.takeK
  rw [Cert.Spec.select_all_one _ hm]
  rfl

/-- The per-graph sums are one scatter-add in both programs. -/
theorem sums_eq (h : FVec Ideal Cert.KernelIdeal.S50000x128 .f32) (b : IVec Cert.KernelIdeal.S50000 32) :
    Cert.ReferenceIdeal.Hand.sumsR h b = Cert.KernelIdeal.Hand.sumsK h b := rfl

/-- The per-graph node counts are one scatter-add in both programs. -/
theorem cnt_eq (b : IVec Cert.KernelIdeal.S50000 32) :
    Cert.ReferenceIdeal.Hand.cntVecR b = Cert.KernelIdeal.Hand.cntVecK b := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is nothing to preserve. -/
theorem preserves : Cert.preserves_Kernel_KernelIdeal := trivial

/-- Both programs end at `Cert.Spec.net` of the same arguments: the kernel program over its filled gathers, which under
    the precondition are the reference's plain gathers; every other host-side operation is shared. -/
theorem algebraic : Cert.algebraic_KernelIdeal_ReferenceIdeal := by
  intro m ρ m' ρ' hpre hagree
  refine ⟨fun c => Cert.KernelIdeal.Gen.W15 m ρ c (Proc.devRef .tc Cert.KernelIdeal.main_v73_0),
    fun c => Cert.KernelIdeal.Gen.W15 m ρ c (Proc.devRef .tc Cert.KernelIdeal.main_v73_1), Cert.KernelIdeal.Gen.run_named m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  have hsrc : ∀ e, Cert.Spec.InRange (Cert.KernelIdeal.Hand.srcK (m ((c.tc : Thread Cert.KernelIdeal.nD Cert.KernelIdeal.τ).loc Cert.KernelIdeal.main_arg1)) e) := fun e =>
    Cert.Pre_finite_inputs.Hand.src_in_range _ _ _ _ _ _ _ _ _ (hpre c) e
  have hagg : (fun h => Cert.ReferenceIdeal.Hand.aggR h (m ((c.tc : Thread Cert.KernelIdeal.nD Cert.KernelIdeal.τ).loc Cert.KernelIdeal.main_arg1))) = fun h => Cert.KernelIdeal.Hand.aggK h (m ((c.tc : Thread Cert.KernelIdeal.nD Cert.KernelIdeal.τ).loc Cert.KernelIdeal.main_arg1)) :=
    funext fun h => (agg_eq h _ hsrc).symm
  have hsums : (fun h => Cert.ReferenceIdeal.Hand.sumsR h (m ((c.tc : Thread Cert.KernelIdeal.nD Cert.KernelIdeal.τ).loc Cert.KernelIdeal.main_arg2))) = fun h => Cert.KernelIdeal.Hand.sumsK h (m ((c.tc : Thread Cert.KernelIdeal.nD Cert.KernelIdeal.τ).loc Cert.KernelIdeal.main_arg2)) :=
    funext fun h => sums_eq h _
  have hcnt : (fun g => Cert.ReferenceIdeal.Hand.cntVecR (m ((c.tc : Thread Cert.KernelIdeal.nD Cert.KernelIdeal.τ).loc Cert.KernelIdeal.main_arg2)) (ix1 g)) = fun g => Cert.KernelIdeal.Hand.cntVecK (m ((c.tc : Thread Cert.KernelIdeal.nD Cert.KernelIdeal.τ).loc Cert.KernelIdeal.main_arg2)) (ix1 g) :=
    funext fun g => congrFun (cnt_eq _) (ix1 g)
  refine ⟨(h c).1.trans ?_, (h c).2.1.trans ?_, (h c).2.2⟩
  · show _ = Cert.KernelIdeal.Gen.W15 m ρ c (Proc.devRef .tc Cert.KernelIdeal.main_v73_0)
    rw [Cert.ReferenceIdeal.Hand.ref_pooled m' c, (Cert.KernelIdeal.Hand.kernel_net m ρ c).1, a0, a1, a2, a3, a4, a5, a6, a7, a8, hagg, hsums, hcnt]
    rfl
  · show _ = Cert.KernelIdeal.Gen.W15 m ρ c (Proc.devRef .tc Cert.KernelIdeal.main_v73_1)
    rw [Cert.ReferenceIdeal.Hand.ref_logits m' c, (Cert.KernelIdeal.Hand.kernel_net m ρ c).2, a0, a1, a2, a3, a4, a5, a6, a7, a8, hagg, hsums, hcnt]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
